-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S64 : Shape := ⟨1, ![64]⟩
abbrev S1x64 : Shape := ⟨2, ![1, 64]⟩
abbrev S100000x64 : Shape := ⟨2, ![100000, 64]⟩
abbrev S64x128 : Shape := ⟨2, ![64, 128]⟩
abbrev S5000x64 : Shape := ⟨2, ![5000, 64]⟩
abbrev S64x1 : Shape := ⟨2, ![64, 1]⟩
abbrev S1x1 : Shape := ⟨2, ![1, 1]⟩

abbrev nBuf : Space → Nat
  | .hbm => 102
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x1, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S100000x1, .i32⟩
  | .hbm, ⟨78, _⟩ => ⟨S64, .i32⟩
  | .hbm, ⟨79, _⟩ => ⟨S1x64, .i32⟩
  | .hbm, ⟨80, _⟩ => ⟨S100000x64, .i32⟩
  | .hbm, ⟨81, _⟩ => ⟨S100000x64, .i32⟩
  | .hbm, ⟨82, _⟩ => ⟨S100000x64, .i1⟩
  | .hbm, ⟨83, _⟩ => ⟨S100000x64, .bf16⟩
  | .hbm, ⟨84, _⟩ => ⟨S1x128, .f32⟩
  | .hbm, ⟨85, _⟩ => ⟨S64x128, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S64, .f32⟩
  | .hbm, ⟨90, _⟩ => ⟨S100000x1, .i32⟩
  | .hbm, ⟨91, _⟩ => ⟨S64, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64x1, .f32⟩
  | .hbm, ⟨96, _⟩ => ⟨S64x128, .f32⟩
  | .hbm, ⟨97, _⟩ => ⟨S64x128, .f32⟩
  | .hbm, ⟨98, _⟩ => ⟨S64x1, .f32⟩
  | .hbm, ⟨99, _⟩ => ⟨S1x1, .f32⟩
  | .hbm, ⟨100, _⟩ => ⟨S64x1, .f32⟩
  | .hbm, ⟨101, _⟩ => ⟨S64x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x64, .bf16⟩
  | .local _ .vmem, ⟨15, _⟩ => ⟨S5000x64, .bf16⟩
  | .local _ .vmem, ⟨16, _⟩ => ⟨S64x128, .f32⟩
  | .local _ .vmem, ⟨17, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_cst_11 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v23 : BitVec 1 := Scalar.cmpi .eq arg0 c19_i32
  let v24 : BitVec 32 := Scalar.extui v23
  let c0_i32_12 : BitVec 32 := 0#32
  let v25 : BitVec 1 := Scalar.cmpi .ne v24 c0_i32_12
  v25

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x64_S5000x128_S64x128_0_0_1_1_n_n_wf : DotDims.WF S5000x64 S5000x128 S64x128 [0] [0] [1] [1] [] []
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .bf16 = 32 ∨ (Rect.block (s := S100000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S64x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .i1⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .i1⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S64x128, .f32⟩
  | .hbm, ⟨98, _⟩ => ⟨S100000x1, .i32⟩
  | .hbm, ⟨99, _⟩ => ⟨S64x128, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S64, .f32⟩
  | .hbm, ⟨104, _⟩ => ⟨S100000x1, .i32⟩
  | .hbm, ⟨105, _⟩ => ⟨S64, .f32⟩
  | .hbm, ⟨106, _⟩ => ⟨S_, .f32⟩
  | .hbm, ⟨107, _⟩ => ⟨S64, .f32⟩
  | .hbm, ⟨108, _⟩ => ⟨S64, .f32⟩
  | .hbm, ⟨109, _⟩ => ⟨S64x1, .f32⟩
  | .hbm, ⟨110, _⟩ => ⟨S64x128, .f32⟩
  | .hbm, ⟨111, _⟩ => ⟨S64x128, .f32⟩
  | .hbm, ⟨112, _⟩ => ⟨S64x1, .f32⟩
  | .hbm, ⟨113, _⟩ => ⟨S1x1, .f32⟩
  | .hbm, ⟨114, _⟩ => ⟨S64x1, .f32⟩
  | .hbm, ⟨115, _⟩ => ⟨S64x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x1_S64x1_1_0_0_1_n_n_wf : DotDims.WF S64x128 S128x1 S64x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Reg0.lean ====
/-
  Region 0 of @main (the first pallas_call): one grid point multiplies a 5000-row block of the node features by
  the whole 128×128 weight matrix and stores the product as that block of the output.  Stated at a parameter
  `V`, the buffers' contents when the region is entered: each window's block at a point, what the body leaves in
  the output window's staging buffer (its one store, over the payload `k0_pay1` of the two loaded blocks), the
  body's triple, the pipeline's proof data and the body obligation at every point.
-/
import proofs.«423938_j11501922419433_1_alg».proof.Proof.Gen.Kernel.Launch
import proofs.«423938_j11501922419433_1_alg».proof.Proof.Gen.Kernel.Skeleton
import proofs.«423938_j11501922419433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000×128 block and the whole 128×128 block, as rectangles. -/
abbrev rA : Rect S5000x128 := Rect.unit (s := S5000x128) ![0, 0] S5000x128.size inb_S5000x128_S5000x128_0_0
abbrev rW : Rect S128x128 := Rect.unit (s := S128x128) ![0, 0] S128x128.size inb_S128x128_S128x128_0_0

/-- The output window's staging buffer after the body: its one store, of the product of the two loaded blocks. -/
def out0_2 (x0 : Vec F S5000x128 .f32) (x1 : Vec F S128x128 .f32) : Vec F S5000x128 .f32 :=
  View.canon [⟨rA, k0_pay1 (View.ld x0 rA) (View.ld x1 rW)⟩]

theorem cover0_2 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
/-- The body on whole staging memrefs, the inputs' at read contents and the output's at anything, runs to the
    continuation holding the inputs' as they were and the output's at `out0_2` of the inputs'. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks; the class-A invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of @main (the second pallas_call): one grid point adds the bias row to a 5000-row block of the
  aggregated features, applies the leaky rectifier (slope 0.01 below zero), multiplies by the whole 128×128
  weight matrix and stores the product as that block of the output.  Stated at a parameter `V`, the buffers'
  contents when the region is entered, as region 0's half is.
-/
import proofs.«423938_j11501922419433_1_alg».proof.Proof.Gen.Kernel.Launch
import proofs.«423938_j11501922419433_1_alg».proof.Proof.Gen.Kernel.Skeleton
import proofs.«423938_j11501922419433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole blocks, as rectangles. -/
abbrev r1A : Rect S5000x128 := Rect.unit (s := S5000x128) ![0, 0] S5000x128.size inb_S5000x128_S5000x128_0_0
abbrev r1B : Rect S1x128 := Rect.unit (s := S1x128) ![0, 0] S1x128.size inb_S1x128_S1x128_0_0
abbrev r1W : Rect S128x128 := Rect.unit (s := S128x128) ![0, 0] S128x128.size inb_S128x128_S128x128_0_0

/-- The output window's staging buffer after the body: its one store, the payload `k1_pay1` of the three loaded blocks. -/
def out1_3 (x0 : Vec F S5000x128 .f32) (x1 : Vec F S1x128 .f32) (x2 : Vec F S128x128 .f32) : Vec F S5000x128 .f32 :=
  View.canon [⟨r1A, k1_pay1 (View.ld x0 r1A) (View.ld x1 r1B) (View.ld x2 r1W)⟩]

theorem cover1_3 (p0 : Vec F S5000x128 .f32) (y : S5000x128.Idx) :
    ∃ pc ∈ ([⟨r1A, p0⟩] : List (View.Piece (Elt F) S5000x128 .f32)), y ∈ pc.1.set :=
  View.cover_of_tiled [⟨r1A, p0⟩] S5000x128.size (by rfl) y

set_option maxHeartbeats 1000000 in
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__fused_act_matmul_kernel i arg1 harg1 arg2 harg2 arg3 harg3 arg4 harg4) K := by
  simp only [cc1__fused_act_matmul_kernel_eq_skeleton]; unfold cc1__fused_act_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2Runs.lean ====
/-
  Region 2 of @main (the third pallas_call), first half: the pooling kernel's body on any staging memrefs.  The
  body zeroes a 64×128 scratch accumulator at the grid's first point, adds to it at every point the contraction
  over a block's 5000 rows of the one-hot graph-membership block with the rectified, bias-shifted feature block,
  and copies the accumulator to the output block at the last point.  Its two conditionals read the grid coordinate
  only, so the twenty points fall into three cases: the first point (reset and add), an inner point (add), the
  last point (add and copy out).  For each case the body's triple is stated over the pieces its stores leave.
-/
import proofs.«423938_j11501922419433_1_alg».proof.Proof.Gen.Kernel.Launch
import proofs.«423938_j11501922419433_1_alg».proof.Proof.Gen.Kernel.Skeleton
import proofs.«423938_j11501922419433_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first conditional is taken exactly when the grid coordinate is zero. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional is taken exactly at the last point. -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the output window is idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the pipeline passes the body -/

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x128 .f32 := win2_3.stage (cfg2.slots t 3)
abbrev hs2_3 (t : Fin cfg2.N) : (ms2_3 t).IsWhole := hstage2_3 ((cfg2.slots t 3).cast nbuf2_3)
/-- The scratch accumulator: a whole scoped buffer of the kernel's own. -/
abbrev scM2 : Memref sig .tc .vmem S64x128 .f32 := Memref.whole cc2_scratch0
/-- The views through which the output block's and the accumulator's contents are stated. -/
abbrev VO2 : View sig .tc .vmem S64x128 .f32 := (Memref.whole cc2_stg3_0 : Memref sig .tc .vmem S64x128 .f32).view
abbrev VS2 : View sig .tc .vmem S64x128 .f32 := scM2.view

/-! ## The body's triple, case by case -/

set_option maxHeartbeats 2000000 in
/-- THE FIRST POINT (first conditional taken, second not): the output block is handed back untouched, the accumulator,
    found at anything, ends with the pieces `LS` written. -/
noncomputable def kernelRun2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : cond2_0 i) (hc1 : ¬cond2_1 i)
    (x0 : Vec F S5000x128 .f32) (x1 : Vec F S1x128 .f32) (x2 : Vec F S5000x64 .bf16) :
    { LS : List (View.Piece (Elt F) S64x128 .f32) //
      ∀ (xi : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__pool_kernel i arg1 harg1 arg2 harg2 arg3 harg3 arg4 harg4 arg5 harg5) K } := by
  refine ⟨?_, fun xi E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- AN INNER POINT (neither conditional taken): the output block handed back untouched, the accumulator found at
    `xs` ends with the pieces `LS` written. -/
noncomputable def kernelRun2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : ¬cond2_1 i)
    (x0 : Vec F S5000x128 .f32) (x1 : Vec F S1x128 .f32) (x2 : Vec F S5000x64 .bf16) (xs : Vec F S64x128 .f32) :
    { LS : List (View.Piece (Elt F) S64x128 .f32) //
      ∀ (xi : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare xs
            ∗ (iprop(owns (c : Thread nD τ) arg1 fullShare x0 ∗ owns (c : Thread nD τ) arg2 fullShare x1 ∗ owns (c : Thread nD τ) arg3 fullShare x2
                ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__pool_kernel i arg1 harg1 arg2 harg2 arg3 harg3 arg4 harg4 arg5 harg5) K } := by
  refine ⟨?_, fun xi E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- THE LAST POINT (second conditional taken, first not): the output block, found at anything, ends with the pieces
    `L3` written, the accumulator found at `xs` with the pieces `LS`. -/
noncomputable def kernelRun2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) :
    Σ' (L3 : List (View.Piece (Elt F) S64x128 .f32)), { LS : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc2__pool_kernel i arg1 harg1 arg2 harg2 arg3 harg3 arg4 harg4 arg5 harg5) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.Kernel.Hand

end
-- ==== Proof.K.Reg2.lean ====
/-
  Region 2 of @main (the third pallas_call), second half.  Stated at a parameter `V`, the buffers' contents when
  the region is entered: what the scratch accumulator and the output block hold after each grid point (a recursion
  on the point: the first point's pieces over anything, every later point's over what the point before left), the
  region's invariant (before the first point the class-A one; afterwards the accumulator at that recursion's value,
  the other scoped buffers at anything, the generator register at some state), the pipeline's proof data, the body
  obligation at every point by cases on the point, and the invariant's two ends.
-/
import proofs.«423938_j11501922419433_1_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The class-A invariant with the accumulator split off -/

/-- The eleven scoped buffers that are neither a staging buffer of this call nor its accumulator, each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2 fullShare d)) ∗ (∃ r, prngReg c r)) := by
  unfold Pipeline.ΦA; rw [scopedRest2_eq]; simp only [scM2, owns_whole]; try rfl

theorem PhiA2_split (c : Dev nD) :
    (Pipeline.ΦA spec2 c : sProp 𝕄) ⊢ iprop((∃ d, owns (c : Thread nD τ) scM2 fullShare d) ∗ others2 c ∗ (∃ r, prngReg c r)) := by
  rw [PhiA2_eq]; unfold others2
  iintro ⟨⟨H1, H2, H3, H4, H5, H6, H7, H8, H9, H10, H11, HS⟩, Hp⟩
  isplitl [HS]; · iexact HS
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem PhiA2_join (c : Dev nD) :
    iprop((∃ d, owns (c : Thread nD τ) scM2 fullShare d) ∗ others2 c ∗ (∃ r, prngReg c r)) ⊢ (Pipeline.ΦA spec2 c : sProp 𝕄) := by
  rw [PhiA2_eq]; unfold others2
  iintro ⟨HS, ⟨H1, H2, H3, H4, H5, H6, H7, H8, H9, H10, H11⟩, Hp⟩
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- The first point's pieces for the accumulator tile it. -/
theorem scover2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : cond2_0 i) (hc1 : ¬cond2_1 i)
    (x0 : Vec F S5000x128 .f32) (x1 : Vec F S1x128 .f32) (x2 : Vec F S5000x64 .bf16) (y : S64x128.Idx) :
    ∃ pc ∈ (kernelRun2_A c i arg1 harg1 arg2 harg2 arg3 harg3 arg4 harg4 arg5 harg5 hc0 hc1 x0 x1 x2).1, y ∈ pc.1.set :=
  View.cover_of_tiledL (kernelRun2_A c i arg1 harg1 arg2 harg2 arg3 harg3 arg4 harg4 arg5 harg5 hc0 hc1 x0 x1 x2).1 S64x128.size (by sl_kernel_rfl) y

/-- What the first point leaves in the accumulator: its pieces read back. -/
def sout2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : cond2_0 i) (hc1 : ¬cond2_1 i)
    (x0 : Vec F S5000x128 .f32) (x1 : Vec F S1x128 .f32) (x2 : Vec F S5000x64 .bf16) : Vec F S64x128 .f32 :=
  VS2.read (Elt F) (VS2.writes (Elt F) VS2.junk (kernelRun2_A c i arg1 harg1 arg2 harg2 arg3 harg3 arg4 harg4 arg5 harg5 hc0 hc1 x0 x1 x2).1)

theorem scover2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : ¬cond2_1 i)
    (x0 : Vec F S5000x128 .f32) (x1 : Vec F S1x128 .f32) (x2 : Vec F S5000x64 .bf16) (xs : Vec F S64x128 .f32) (y : S64x128.Idx) :
    ∃ pc ∈ (kernelRun2_B c i arg1 harg1 arg2 harg2 arg3 harg3 arg4 harg4 arg5 harg5 hc0 hc1 x0 x1 x2 xs).1, y ∈ pc.1.set :=
  View.cover_of_tiledL (kernelRun2_B c i arg1 harg1 arg2 harg2 arg3 harg3 arg4 harg4 arg5 harg5 hc0 hc1 x0 x1 x2 xs).1 S64x128.size (by sl_kernel_rfl) y

/-- What an inner point leaves in the accumulator, over what the point before left (`xs`). -/
def sout2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : ¬cond2_1 i)
    (x0 : Vec F S5000x128 .f32) (x1 : Vec F S1x128 .f32) (x2 : Vec F S5000x64 .bf16) (xs : Vec F S64x128 .f32) : Vec F S64x128 .f32 :=
  VS2.read (Elt F) (VS2.writes (Elt F) VS2.junk (kernelRun2_B c i arg1 harg1 arg2 harg2 arg3 harg3 arg4 harg4 arg5 harg5 hc0 hc1 x0 x1 x2 xs).1)

theorem cover2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) (y : S64x128.Idx) :
    ∃ pc ∈ (kernelRun2_C c i arg1 harg1 arg2 harg2 arg3 harg3 arg4 harg4 arg5 harg5 hc0 hc1 x0 x1 x2 xs).1, y ∈ pc.1.set :=
  View.cover_of_tiledL (kernelRun2_C c i arg1 harg1 arg2 harg2 arg3 harg3 arg4 harg4 arg5 harg5 hc0 hc1 x0 x1 x2 xs).1 S64x128.size (by sl_kernel_rfl) y

/-- What the last point leaves in the output block. -/
def out2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) : Vec F S64x128 .f32 :=
  VO2.read (Elt F) (VO2.writes (Elt F) VO2.junk (kernelRun2_C c i arg1 harg1 arg2 harg2 arg3 harg3 arg4 harg4 arg5 harg5 hc0 hc1 x0 x1 x2 xs).1)

theorem scover2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) (y : S64x128.Idx) :
    ∃ pc ∈ (kernelRun2_C c i arg1 harg1 arg2 harg2 arg3 harg3 arg4 harg4 arg5 harg5 hc0 hc1 x0 x1 x2 xs).2.1, y ∈ pc.1.set :=
  View.cover_of_tiledL (kernelRun2_C c i arg1 harg1 arg2 harg2 arg3 harg3 arg4 harg4 arg5 harg5 hc0 hc1 x0 x1 x2 xs).2.1 S64x128.size (by sl_kernel_rfl) y

/-- What the last point leaves in the accumulator. -/
def sout2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) : Vec F S64x128 .f32 :=
  VS2.read (Elt F) (VS2.writes (Elt F) VS2.junk (kernelRun2_C c i arg1 harg1 arg2 harg2 arg3 harg3 arg4 harg4 arg5 harg5 hc0 hc1 x0 x1 x2 xs).2.1)

/-- At a point where the output window is idle nothing consults its block: a placeholder. -/
def idleOut2 : Vec F S64x128 .f32 := VO2.read (Elt F) (VO2.writes (Elt F) VO2.junk [])

/-! ## What the output block and the accumulator hold after each point -/

theorem lt20 {n : ℕ} (hn : n < cfg2.N) : n < 20 := lt_of_lt_of_eq hn (show cfg2.N = 20 from N_2)

/-- After position `n`: (the output block, the accumulator). -/
def outsAt2 (c : Dev nD) : (n : ℕ) → n < cfg2.N → Vec F S64x128 .f32 × Vec F S64x128 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => by have := (hcond2_1 ⟨0, hn⟩).mp h; (try dsimp only at this); omega) (iblk2 V c 0 ⟨0, hn⟩) (iblk2 V c 1 ⟨0, hn⟩) (iblk2 V c 2 ⟨0, hn⟩))
  | n + 1, hn =>
    if h1 : (n + 1) % 20 = 19 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => by have := (hcond2_0 ⟨n + 1, hn⟩).mp h; have := lt20 hn; (try dsimp only at *); omega) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => by have := (hcond2_0 ⟨n + 1, hn⟩).mp h; have := lt20 hn; (try dsimp only at *); omega) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
    else
      (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => by have := (hcond2_0 ⟨n + 1, hn⟩).mp h; have := lt20 hn; (try dsimp only at *); omega) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 20 = 0) (h1 : ¬t.val % 20 = 19) :
    outsAt2 V c t.val t.isLt = (idleOut2, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (by exfalso; have := lt20 hn; (try dsimp only at h0); omega)

theorem outsAt2_B (c : Dev nD) (t : Fin cfg2.N) (h0 : ¬t.val % 20 = 0) (h1 : ¬t.val % 20 = 19) :
    outsAt2 V c t.val t.isLt = (idleOut2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 20 = 0) (h1 : t.val % 20 = 19) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The region's invariant -/

def PhiS2 (c : Dev nD) : (n : ℕ) → n ≤ cfg2.N → sProp 𝕄
  | 0, _ => Pipeline.ΦA spec2 c
  | n + 1, hn => iprop(owns (c : Thread nD τ) scM2 fullShare ((outsAt2 V c n hn).2) ∗ others2 c ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare ((outsAt2 V c n hn).2) ∗ others2 c ∗ (∃ r, prngReg c r)) := rfl

theorem PhiS2_pos (c : Dev nD) (n : ℕ) (h : n ≤ cfg2.N) (hz : n ≠ 0) :
    PhiS2 V c n h = iprop(owns (c : Thread nD τ) scM2 fullShare ((outsAt2 V c (n - 1) (by omega)).2) ∗ others2 c ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 20 := lt20 t.isLt
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h1 : t.val % 20 = 19
  · have h0 : ¬t.val % 20 = 0 := by omega
    have hz : t.val ≠ 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    rw [outsAt2_C V c t h0 h1]
    unfold out2_C sout2_C; (try dsimp only)
    rw [PhiS2_castSucc V c t, PhiS2_pos V c _ _ hz]
    iintro ⟨⟨HS, Hoth, Hg⟩, Ho, ⟨%d0, H0⟩, ⟨%d1, H1⟩, ⟨%d2, H2⟩, ⟨%d3, H3⟩⟩
    iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS]
      · unfold owns; iexists _; isplitr
        swap; · iexact HS
        ipureintro; exact View.read_writes_of_cover _ _ _ _ _ (scover2_C c _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C c _ _ _ _ _ _ _ _ _ _ _ _ _ _ _ _ _)
  · rw [Dat.leavesExact_idle (dat2 V c) 3 t (idleAt2_3 t (fun h => h1 ((hcond2_1 t).mp h))) (noFlush2_3 t (fun h => h1 ((hcond2_1 t).mp h)))]
    by_cases h0 : t.val % 20 = 0
    · have hz : t.val = 0 := by omega
      rw [outsAt2_A V c t h0 h1]
      unfold sout2_A; (try dsimp only)
      rw [PhiS2_castSucc V c t, PhiS2_zero V c _ _ hz]
      iintro ⟨HΦ, Ho, ⟨%d0, H0⟩, ⟨%d1, H1⟩, ⟨%d2, H2⟩, ⟨%d3, H3⟩⟩
      ihave HΦ' := (PhiA2_split (F := F) c) $$ HΦ
      icases HΦ' with ⟨HS, Hoth, Hg⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact View.read_writes_of_cover _ _ _ _ _ (scover2_A c _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3
    · have hz : t.val ≠ 0 := by omega
      rw [outsAt2_B V c t h0 h1]
      unfold sout2_B; (try dsimp only)
      rw [PhiS2_castSucc V c t, PhiS2_pos V c _ _ hz]
      iintro ⟨⟨HS, Hoth, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact View.read_writes_of_cover _ _ _ _ _ (scover2_B c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands the region (the class-A invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class-A invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega)]
  iintro ⟨HS, Hoth, Hg⟩
  iapply (PhiA2_join (F := F) c)
  isplitl [HS]; · iexists _; iexact HS
  isplitl [Hoth]; · iexact Hoth
  iexact Hg

end Cert.Kernel.Hand

end
-- ==== Proof.K.Run.lean ====
/-
  The run of @main: four stretches of host operations around three TensorCore regions. The buffers' contents at
  every boundary are a fold from the launch memory: a host stretch rewrites the buffers its operations write and
  leaves the rest; a region leaves its arrays at what its pipeline's write-backs make of them (an input window's
  array as entered, the output window's with every block written back) and every other buffer as entered. Each
  region's proof data are taken at the contents its region is entered from. Over the thread state "every unscoped
  buffer whole at the boundary's contents, the generator register at some state, nothing owed", the seven segments
  chain from the launch to the return, so every weakly fair execution terminates with every unscoped buffer at the
  last fold's contents (`run_all`). No host operation writes an argument, and a region reads an argument only
  through an input window, so the fold at an argument's buffer walks back to the launch memory (`W7_main_argK`):
  the nine arguments end as launched (`frame`).
-/
import proofs.«423938_j11501922419433_1_alg».proof.Proof.K.Reg0
import proofs.«423938_j11501922419433_1_alg».proof.Proof.K.Reg1
import proofs.«423938_j11501922419433_1_alg».proof.Proof.K.Reg2
import proofs.«423938_j11501922419433_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary: a fold through @main -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (an input's as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (an input's as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (an input's as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (the return). -/
abbrev W7 : Dev nD → Valuation τ sig (Elt F) := fun c => StableHlo.after hostOps3 (W6 m ρ c)

/-! ### The arguments end as launched: no host operation writes one (it is not among the references the stretch
    writes), and a region either does not touch it or reads it through an input window, whose array the pipeline
    leaves as entered -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents: a literal match, so that the family at a
    numeral reduces to that region's data without evaluating any contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the stretch's result from `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-- The last host stretch leaves every unscoped buffer at `W7` beside the register and the dues; regrouped, that is the
    last thread state beside the core owing nothing. -/
theorem last_link (c : Dev nD) :
    iprop(StableHlo.held (c : Thread nD τ) (Pipeline.ucRefs τ sig) (W7 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W1`, left at `W2`. Its arrays are
    split out of the unscoped buffers and put back at the exit contents; the generator register goes into the
    class-A invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    class-A invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its invariant
    carries the scratch accumulator between grid points, so it is not the class-A invariant itself: what the launch
    hands the region is the class-A invariant, which is the invariant before the first point (`hin2`), and the
    invariant after the last point gives the class-A invariant back (`hout2`). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments: @main is the chain of its seven items, and the segments' run is the chain of
    their fragments, which are those items. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3 ] from rfl]
  rfl

set_option backward.isDefEq.respectTransparency.types false in
/-- Every unscoped buffer ends at the last fold's contents: at the compiled mesh, from any memory with zero counters,
    every weakly fair execution of @main on the TensorCores terminates, nothing faulting, and every final memory
    holds, on every core, each unscoped buffer at `W7`. The launch over the seven segments; the last thread state
    read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the nine argument arrays end as launched. Each is an unscoped buffer, so `run_all` reads it at the last
    fold's contents, which walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c)⟩) (run_all m ρ)

/-- info: 'Cert.Kernel.Hand.frame' depends on axioms: [propext, Classical.choice, Quot.sound] -/
#guard_msgs in #print axioms frame

end Cert.Kernel.Hand

end
-- ==== Proof.KI.Reg0.lean ====
/-
  Region 0 of @main (the first pallas_call): one grid point multiplies a 5000-row block of the node features by
  the whole 128×128 weight matrix and stores the product as that block of the output.  Stated at a parameter
  `V`, the buffers' contents when the region is entered: each window's block at a point, what the body leaves in
  the output window's staging buffer (its one store, over the payload `k0_pay1` of the two loaded blocks), the
  body's triple, the pipeline's proof data and the body obligation at every point.
-/
import proofs.«423938_j11501922419433_1_alg».proof.Proof.Gen.KernelIdeal.Launch
import proofs.«423938_j11501922419433_1_alg».proof.Proof.Gen.KernelIdeal.Skeleton
import proofs.«423938_j11501922419433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 5000×128 block and the whole 128×128 block, as rectangles. -/
abbrev rA : Rect S5000x128 := Rect.unit (s := S5000x128) ![0, 0] S5000x128.size inb_S5000x128_S5000x128_0_0
abbrev rW : Rect S128x128 := Rect.unit (s := S128x128) ![0, 0] S128x128.size inb_S128x128_S128x128_0_0

/-- The output window's staging buffer after the body: its one store, of the product of the two loaded blocks. -/
def out0_2 (x0 : Vec F S5000x128 .f32) (x1 : Vec F S128x128 .f32) : Vec F S5000x128 .f32 :=
  View.canon [⟨rA, k0_pay1 (View.ld x0 rA) (View.ld x1 rW)⟩]

theorem cover0_2 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
/-- The body on whole staging memrefs, the inputs' at read contents and the output's at anything, runs to the
    continuation holding the inputs' as they were and the output's at `out0_2` of the inputs'. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t`
    each input's buffer at its block and the output's at `out0_2` of the input blocks; the class-A invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of @main (the second pallas_call): one grid point adds the bias row to a 5000-row block of the
  aggregated features, applies the leaky rectifier (slope 0.01 below zero), multiplies by the whole 128×128
  weight matrix and stores the product as that block of the output.  Stated at a parameter `V`, the buffers'
  contents when the region is entered, as region 0's half is.
-/
import proofs.«423938_j11501922419433_1_alg».proof.Proof.Gen.KernelIdeal.Launch
import proofs.«423938_j11501922419433_1_alg».proof.Proof.Gen.KernelIdeal.Skeleton
import proofs.«423938_j11501922419433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole blocks, as rectangles. -/
abbrev r1A : Rect S5000x128 := Rect.unit (s := S5000x128) ![0, 0] S5000x128.size inb_S5000x128_S5000x128_0_0
abbrev r1B : Rect S1x128 := Rect.unit (s := S1x128) ![0, 0] S1x128.size inb_S1x128_S1x128_0_0
abbrev r1W : Rect S128x128 := Rect.unit (s := S128x128) ![0, 0] S128x128.size inb_S128x128_S128x128_0_0

/-- The output window's staging buffer after the body: its one store, the payload `k1_pay1` of the three loaded blocks. -/
def out1_3 (x0 : Vec F S5000x128 .f32) (x1 : Vec F S1x128 .f32) (x2 : Vec F S128x128 .f32) : Vec F S5000x128 .f32 :=
  View.canon [⟨r1A, k1_pay1 (View.ld x0 r1A) (View.ld x1 r1B) (View.ld x2 r1W)⟩]

theorem cover1_3 (p0 : Vec F S5000x128 .f32) (y : S5000x128.Idx) :
    ∃ pc ∈ ([⟨r1A, p0⟩] : List (View.Piece (Elt F) S5000x128 .f32)), y ∈ pc.1.set :=
  View.cover_of_tiled [⟨r1A, p0⟩] S5000x128.size (by rfl) y

set_option maxHeartbeats 1000000 in
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S128x128 .f32) (harg3 : arg3.IsWhole)
    (arg4 : Memref sig .tc .vmem S5000x128 .f32) (harg4 : arg4.IsWhole)
    (x0 : Vec F S5000x128 .f32) (x1 : Vec F S1x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__fused_act_matmul_kernel i arg1 harg1 arg2 harg2 arg3 harg3 arg4 harg4) K := by
  simp only [cc1__fused_act_matmul_kernel_eq_skeleton]; unfold cc1__fused_act_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
/-
  Region 2 of @main (the third pallas_call), first half: the pooling kernel's body on any staging memrefs.  The
  body zeroes a 64×128 scratch accumulator at the grid's first point, adds to it at every point the contraction
  over a block's 5000 rows of the one-hot graph-membership block with the rectified, bias-shifted feature block,
  and copies the accumulator to the output block at the last point.  Its two conditionals read the grid coordinate
  only, so the twenty points fall into three cases: the first point (reset and add), an inner point (add), the
  last point (add and copy out).  For each case the body's triple is stated over the pieces its stores leave.
-/
import proofs.«423938_j11501922419433_1_alg».proof.Proof.Gen.KernelIdeal.Launch
import proofs.«423938_j11501922419433_1_alg».proof.Proof.Gen.KernelIdeal.Skeleton
import proofs.«423938_j11501922419433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, decided over the grid -/

/-- The first conditional is taken exactly when the grid coordinate is zero. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- The second conditional is taken exactly at the last point. -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last point the output window is idle and not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

/-! ## The memrefs the pipeline passes the body -/

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S5000x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x128 .f32 := win2_3.stage (cfg2.slots t 3)
abbrev hs2_3 (t : Fin cfg2.N) : (ms2_3 t).IsWhole := hstage2_3 ((cfg2.slots t 3).cast nbuf2_3)
/-- The scratch accumulator: a whole scoped buffer of the kernel's own. -/
abbrev scM2 : Memref sig .tc .vmem S64x128 .f32 := Memref.whole cc2_scratch0
/-- The views through which the output block's and the accumulator's contents are stated. -/
abbrev VO2 : View sig .tc .vmem S64x128 .f32 := (Memref.whole cc2_stg3_0 : Memref sig .tc .vmem S64x128 .f32).view
abbrev VS2 : View sig .tc .vmem S64x128 .f32 := scM2.view

/-! ## The body's triple, case by case -/

set_option maxHeartbeats 2000000 in
/-- THE FIRST POINT (first conditional taken, second not): the output block is handed back untouched, the accumulator,
    found at anything, ends with the pieces `LS` written. -/
noncomputable def kernelRun2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : cond2_0 i) (hc1 : ¬cond2_1 i)
    (x0 : Vec F S5000x128 .f32) (x1 : Vec F S1x128 .f32) (x2 : Vec F S5000x64 .bf16) :
    { LS : List (View.Piece (Elt F) S64x128 .f32) //
      ∀ (xi : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__pool_kernel i arg1 harg1 arg2 harg2 arg3 harg3 arg4 harg4 arg5 harg5) K } := by
  refine ⟨?_, fun xi E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- AN INNER POINT (neither conditional taken): the output block handed back untouched, the accumulator found at
    `xs` ends with the pieces `LS` written. -/
noncomputable def kernelRun2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : ¬cond2_1 i)
    (x0 : Vec F S5000x128 .f32) (x1 : Vec F S1x128 .f32) (x2 : Vec F S5000x64 .bf16) (xs : Vec F S64x128 .f32) :
    { LS : List (View.Piece (Elt F) S64x128 .f32) //
      ∀ (xi : Vec F S64x128 .f32) (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare xi ∗ owns (c : Thread nD τ) arg5 fullShare xs
            ∗ (iprop(owns (c : Thread nD τ) arg1 fullShare x0 ∗ owns (c : Thread nD τ) arg2 fullShare x1 ∗ owns (c : Thread nD τ) arg3 fullShare x2
                ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc2__pool_kernel i arg1 harg1 arg2 harg2 arg3 harg3 arg4 harg4 arg5 harg5) K } := by
  refine ⟨?_, fun xi E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg1.eq_unread hf0; obtain rfl := harg2.eq_unread hf1; obtain rfl := harg3.eq_unread hf2; obtain rfl := harg4.eq_unread hf3; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS

set_option maxHeartbeats 2000000 in
/-- THE LAST POINT (second conditional taken, first not): the output block, found at anything, ends with the pieces
    `L3` written, the accumulator found at `xs` with the pieces `LS`. -/
noncomputable def kernelRun2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) :
    Σ' (L3 : List (View.Piece (Elt F) S64x128 .f32)), { LS : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS)) -∗ K ⟨⟩))
          ⊢ wp frame (wpE (defs₀ (F := F)) Variants.none c none) E (cc2__pool_kernel i arg1 harg1 arg2 harg2 arg3 harg3 arg4 harg4 arg5 harg5) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.KernelIdeal.Hand

end
-- ==== Proof.KI.Reg2.lean ====
/-
  Region 2 of @main (the third pallas_call), second half.  Stated at a parameter `V`, the buffers' contents when
  the region is entered: what the scratch accumulator and the output block hold after each grid point (a recursion
  on the point: the first point's pieces over anything, every later point's over what the point before left), the
  region's invariant (before the first point the class-A one; afterwards the accumulator at that recursion's value,
  the other scoped buffers at anything, the generator register at some state), the pipeline's proof data, the body
  obligation at every point by cases on the point, and the invariant's two ends.
-/
import proofs.«423938_j11501922419433_1_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The class-A invariant with the accumulator split off -/

/-- The eleven scoped buffers that are neither a staging buffer of this call nor its accumulator, each whole at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2 fullShare d)) ∗ (∃ r, prngReg c r)) := by
  unfold Pipeline.ΦA; rw [scopedRest2_eq]; simp only [scM2, owns_whole]; try rfl

theorem PhiA2_split (c : Dev nD) :
    (Pipeline.ΦA spec2 c : sProp 𝕄) ⊢ iprop((∃ d, owns (c : Thread nD τ) scM2 fullShare d) ∗ others2 c ∗ (∃ r, prngReg c r)) := by
  rw [PhiA2_eq]; unfold others2
  iintro ⟨⟨H1, H2, H3, H4, H5, H6, H7, H8, H9, H10, H11, HS⟩, Hp⟩
  isplitl [HS]; · iexact HS
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem PhiA2_join (c : Dev nD) :
    iprop((∃ d, owns (c : Thread nD τ) scM2 fullShare d) ∗ others2 c ∗ (∃ r, prngReg c r)) ⊢ (Pipeline.ΦA spec2 c : sProp 𝕄) := by
  rw [PhiA2_eq]; unfold others2
  iintro ⟨HS, ⟨H1, H2, H3, H4, H5, H6, H7, H8, H9, H10, H11⟩, Hp⟩
  isplitr [Hp]
  swap; · iexact Hp
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HS

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- The first point's pieces for the accumulator tile it. -/
theorem scover2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : cond2_0 i) (hc1 : ¬cond2_1 i)
    (x0 : Vec F S5000x128 .f32) (x1 : Vec F S1x128 .f32) (x2 : Vec F S5000x64 .bf16) (y : S64x128.Idx) :
    ∃ pc ∈ (kernelRun2_A c i arg1 harg1 arg2 harg2 arg3 harg3 arg4 harg4 arg5 harg5 hc0 hc1 x0 x1 x2).1, y ∈ pc.1.set :=
  View.cover_of_tiledL (kernelRun2_A c i arg1 harg1 arg2 harg2 arg3 harg3 arg4 harg4 arg5 harg5 hc0 hc1 x0 x1 x2).1 S64x128.size (by sl_kernel_rfl) y

/-- What the first point leaves in the accumulator: its pieces read back. -/
def sout2_A (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : cond2_0 i) (hc1 : ¬cond2_1 i)
    (x0 : Vec F S5000x128 .f32) (x1 : Vec F S1x128 .f32) (x2 : Vec F S5000x64 .bf16) : Vec F S64x128 .f32 :=
  VS2.read (Elt F) (VS2.writes (Elt F) VS2.junk (kernelRun2_A c i arg1 harg1 arg2 harg2 arg3 harg3 arg4 harg4 arg5 harg5 hc0 hc1 x0 x1 x2).1)

theorem scover2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : ¬cond2_1 i)
    (x0 : Vec F S5000x128 .f32) (x1 : Vec F S1x128 .f32) (x2 : Vec F S5000x64 .bf16) (xs : Vec F S64x128 .f32) (y : S64x128.Idx) :
    ∃ pc ∈ (kernelRun2_B c i arg1 harg1 arg2 harg2 arg3 harg3 arg4 harg4 arg5 harg5 hc0 hc1 x0 x1 x2 xs).1, y ∈ pc.1.set :=
  View.cover_of_tiledL (kernelRun2_B c i arg1 harg1 arg2 harg2 arg3 harg3 arg4 harg4 arg5 harg5 hc0 hc1 x0 x1 x2 xs).1 S64x128.size (by sl_kernel_rfl) y

/-- What an inner point leaves in the accumulator, over what the point before left (`xs`). -/
def sout2_B (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : ¬cond2_1 i)
    (x0 : Vec F S5000x128 .f32) (x1 : Vec F S1x128 .f32) (x2 : Vec F S5000x64 .bf16) (xs : Vec F S64x128 .f32) : Vec F S64x128 .f32 :=
  VS2.read (Elt F) (VS2.writes (Elt F) VS2.junk (kernelRun2_B c i arg1 harg1 arg2 harg2 arg3 harg3 arg4 harg4 arg5 harg5 hc0 hc1 x0 x1 x2 xs).1)

theorem cover2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) (y : S64x128.Idx) :
    ∃ pc ∈ (kernelRun2_C c i arg1 harg1 arg2 harg2 arg3 harg3 arg4 harg4 arg5 harg5 hc0 hc1 x0 x1 x2 xs).1, y ∈ pc.1.set :=
  View.cover_of_tiledL (kernelRun2_C c i arg1 harg1 arg2 harg2 arg3 harg3 arg4 harg4 arg5 harg5 hc0 hc1 x0 x1 x2 xs).1 S64x128.size (by sl_kernel_rfl) y

/-- What the last point leaves in the output block. -/
def out2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) : Vec F S64x128 .f32 :=
  VO2.read (Elt F) (VO2.writes (Elt F) VO2.junk (kernelRun2_C c i arg1 harg1 arg2 harg2 arg3 harg3 arg4 harg4 arg5 harg5 hc0 hc1 x0 x1 x2 xs).1)

theorem scover2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) (y : S64x128.Idx) :
    ∃ pc ∈ (kernelRun2_C c i arg1 harg1 arg2 harg2 arg3 harg3 arg4 harg4 arg5 harg5 hc0 hc1 x0 x1 x2 xs).2.1, y ∈ pc.1.set :=
  View.cover_of_tiledL (kernelRun2_C c i arg1 harg1 arg2 harg2 arg3 harg3 arg4 harg4 arg5 harg5 hc0 hc1 x0 x1 x2 xs).2.1 S64x128.size (by sl_kernel_rfl) y

/-- What the last point leaves in the accumulator. -/
def sout2_C (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) : Vec F S64x128 .f32 :=
  VS2.read (Elt F) (VS2.writes (Elt F) VS2.junk (kernelRun2_C c i arg1 harg1 arg2 harg2 arg3 harg3 arg4 harg4 arg5 harg5 hc0 hc1 x0 x1 x2 xs).2.1)

/-- At a point where the output window is idle nothing consults its block: a placeholder. -/
def idleOut2 : Vec F S64x128 .f32 := VO2.read (Elt F) (VO2.writes (Elt F) VO2.junk [])

/-! ## What the output block and the accumulator hold after each point -/

theorem lt20 {n : ℕ} (hn : n < cfg2.N) : n < 20 := lt_of_lt_of_eq hn (show cfg2.N = 20 from N_2)

/-- After position `n`: (the output block, the accumulator). -/
def outsAt2 (c : Dev nD) : (n : ℕ) → n < cfg2.N → Vec F S64x128 .f32 × Vec F S64x128 .f32
  | 0, hn => (idleOut2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => by have := (hcond2_1 ⟨0, hn⟩).mp h; (try dsimp only at this); omega) (iblk2 V c 0 ⟨0, hn⟩) (iblk2 V c 1 ⟨0, hn⟩) (iblk2 V c 2 ⟨0, hn⟩))
  | n + 1, hn =>
    if h1 : (n + 1) % 20 = 19 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => by have := (hcond2_0 ⟨n + 1, hn⟩).mp h; have := lt20 hn; (try dsimp only at *); omega) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => by have := (hcond2_0 ⟨n + 1, hn⟩).mp h; have := lt20 hn; (try dsimp only at *); omega) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
    else
      (idleOut2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => by have := (hcond2_0 ⟨n + 1, hn⟩).mp h; have := lt20 hn; (try dsimp only at *); omega) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 20 = 0) (h1 : ¬t.val % 20 = 19) :
    outsAt2 V c t.val t.isLt = (idleOut2, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (by exfalso; have := lt20 hn; (try dsimp only at h0); omega)

theorem outsAt2_B (c : Dev nD) (t : Fin cfg2.N) (h0 : ¬t.val % 20 = 0) (h1 : ¬t.val % 20 = 19) :
    outsAt2 V c t.val t.isLt = (idleOut2, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

theorem outsAt2_C (c : Dev nD) (t : Fin cfg2.N) (h0 : ¬t.val % 20 = 0) (h1 : t.val % 20 = 19) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The region's invariant -/

def PhiS2 (c : Dev nD) : (n : ℕ) → n ≤ cfg2.N → sProp 𝕄
  | 0, _ => Pipeline.ΦA spec2 c
  | n + 1, hn => iprop(owns (c : Thread nD τ) scM2 fullShare ((outsAt2 V c n hn).2) ∗ others2 c ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare ((outsAt2 V c n hn).2) ∗ others2 c ∗ (∃ r, prngReg c r)) := rfl

theorem PhiS2_pos (c : Dev nD) (n : ℕ) (h : n ≤ cfg2.N) (hz : n ≠ 0) :
    PhiS2 V c n h = iprop(owns (c : Thread nD τ) scM2 fullShare ((outsAt2 V c (n - 1) (by omega)).2) ∗ others2 c ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 20 := lt20 t.isLt
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h1 : t.val % 20 = 19
  · have h0 : ¬t.val % 20 = 0 := by omega
    have hz : t.val ≠ 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    rw [outsAt2_C V c t h0 h1]
    unfold out2_C sout2_C; (try dsimp only)
    rw [PhiS2_castSucc V c t, PhiS2_pos V c _ _ hz]
    iintro ⟨⟨HS, Hoth, Hg⟩, Ho, ⟨%d0, H0⟩, ⟨%d1, H1⟩, ⟨%d2, H2⟩, ⟨%d3, H3⟩⟩
    iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS]
      · unfold owns; iexists _; isplitr
        swap; · iexact HS
        ipureintro; exact View.read_writes_of_cover _ _ _ _ _ (scover2_C c _ _ _ _ _ _ _ _ _ _ _ _ _ _ _ _ _)
      isplitl [Hoth]; · iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C c _ _ _ _ _ _ _ _ _ _ _ _ _ _ _ _ _)
  · rw [Dat.leavesExact_idle (dat2 V c) 3 t (idleAt2_3 t (fun h => h1 ((hcond2_1 t).mp h))) (noFlush2_3 t (fun h => h1 ((hcond2_1 t).mp h)))]
    by_cases h0 : t.val % 20 = 0
    · have hz : t.val = 0 := by omega
      rw [outsAt2_A V c t h0 h1]
      unfold sout2_A; (try dsimp only)
      rw [PhiS2_castSucc V c t, PhiS2_zero V c _ _ hz]
      iintro ⟨HΦ, Ho, ⟨%d0, H0⟩, ⟨%d1, H1⟩, ⟨%d2, H2⟩, ⟨%d3, H3⟩⟩
      ihave HΦ' := (PhiA2_split (F := F) c) $$ HΦ
      icases HΦ' with ⟨HS, Hoth, Hg⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact View.read_writes_of_cover _ _ _ _ _ (scover2_A c _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3
    · have hz : t.val ≠ 0 := by omega
      rw [outsAt2_B V c t h0 h1]
      unfold sout2_B; (try dsimp only)
      rw [PhiS2_castSucc V c t, PhiS2_pos V c _ _ hz]
      iintro ⟨⟨HS, Hoth, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hoth Hg]
      · isplitl [HS]
        · unfold owns; iexists _; isplitr
          swap; · iexact HS
          ipureintro; exact View.read_writes_of_cover _ _ _ _ _ (scover2_B c _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands the region (the class-A invariant) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class-A invariant back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 20 := N_2; omega)]
  iintro ⟨HS, Hoth, Hg⟩
  iapply (PhiA2_join (F := F) c)
  isplitl [HS]; · iexists _; iexact HS
  isplitl [Hoth]; · iexact Hoth
  iexact Hg

end Cert.KernelIdeal.Hand

end
-- ==== Proof.KI.Run.lean ====
/-
  The run of @main: four stretches of host operations around three TensorCore regions. The buffers' contents at
  every boundary are a fold from the launch memory: a host stretch rewrites the buffers its operations write and
  leaves the rest; a region leaves its arrays at what its pipeline's write-backs make of them (an input window's
  array as entered, the output window's with every block written back) and every other buffer as entered. Each
  region's proof data are taken at the contents its region is entered from. Over the thread state "every unscoped
  buffer whole at the boundary's contents, the generator register at some state, nothing owed", the seven segments
  chain from the launch to the return, so every weakly fair execution terminates with every unscoped buffer at the
  last fold's contents (`run_all`). No host operation writes an argument, and a region reads an argument only
  through an input window, so the fold at an argument's buffer walks back to the launch memory (`W7_main_argK`):
  the nine arguments end as launched (`frame`).
-/
import proofs.«423938_j11501922419433_1_alg».proof.Proof.KI.Reg0
import proofs.«423938_j11501922419433_1_alg».proof.Proof.KI.Reg1
import proofs.«423938_j11501922419433_1_alg».proof.Proof.KI.Reg2
import proofs.«423938_j11501922419433_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary: a fold through @main -/

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (an input's as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (an input's as entered, the output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (an input's as entered, the output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (the return). -/
abbrev W7 : Dev nD → Valuation τ sig (Elt F) := fun c => StableHlo.after hostOps3 (W6 m ρ c)

/-! ### The arguments end as launched: no host operation writes one (it is not among the references the stretch
    writes), and a region either does not touch it or reads it through an input window, whose array the pipeline
    leaves as entered -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 1).trans (((dat0 (V1 m ρ) c).arrAt_in 1 rfl _).trans (A_eq0 (V1 m ρ) c 1))
    _ = W0 m ρ c (Proc.devRef .tc main_arg3) := StableHlo.after_of_writes_sub hostOps0 _ hostOps0_writes (by decide)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

/-- Every pipeline's proof data, each at its region's entry contents: a literal match, so that the family at a
    numeral reduces to that region's data without evaluating any contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the stretch's result from `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-- The last host stretch leaves every unscoped buffer at `W7` beside the register and the dues; regrouped, that is the
    last thread state beside the core owing nothing. -/
theorem last_link (c : Dev nD) :
    iprop(StableHlo.held (c : Thread nD τ) (Pipeline.ucRefs τ sig) (W7 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W1`, left at `W2`. Its arrays are
    split out of the unscoped buffers and put back at the exit contents; the generator register goes into the
    class-A invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    class-A invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its invariant
    carries the scratch accumulator between grid points, so it is not the class-A invariant itself: what the launch
    hands the region is the class-A invariant, which is the invariant before the first point (`hin2`), and the
    invariant after the last point gives the class-A invariant back (`hout2`). -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    refine BIBase.Entails.trans ?_ (hin2 (V5 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V5 m ρ) c).Φ (Fin.last cfg2.N) from rfl]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main is the run of the segments: @main is the chain of its seven items, and the segments' run is the chain of
    their fragments, which are those items. -/
theorem main_run (c : Dev nD) : main (F := F) c = Pipeline.Seg.run (segs m ρ) := by
  rewrite [main_chain c, Pipeline.Seg.run_eq_chain,
    show (segs m ρ).map Pipeline.Seg.prog = [
      StableHlo.seq hostOps0,
      Prog.lift (.customCall (Pipeline.entry 0) ()),
      StableHlo.seq hostOps1,
      Prog.lift (.customCall (Pipeline.entry 1) ()),
      StableHlo.seq hostOps2,
      Prog.lift (.customCall (Pipeline.entry 2) ()),
      StableHlo.seq hostOps3 ] from rfl]
  rfl

set_option backward.isDefEq.respectTransparency.types false in
/-- Every unscoped buffer ends at the last fold's contents: at the compiled mesh, from any memory with zero counters,
    every weakly fair execution of @main on the TensorCores terminates, nothing faulting, and every final memory
    holds, on every core, each unscoped buffer at `W7`. The launch over the seven segments; the last thread state
    read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the nine argument arrays end as launched. Each is an unscoped buffer, so `run_all` reads it at the last
    fold's contents, which walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c)⟩) (run_all m ρ)

/-- info: 'Cert.KernelIdeal.Hand.frame' depends on axioms: [propext, Classical.choice, Quot.sound] -/
#guard_msgs in #print axioms frame

end Cert.KernelIdeal.Hand

end
-- ==== Proof.Spec.lean ====
/-
  The reference's stage chain cut into the pieces the kernel's three regions and its host stretches must match:
  the bias row added and the leaky rectifier applied (`act`), a linear layer (`lin`: every row times a 128×128
  matrix), the normalised neighbourhood aggregation (`agg`: gather the rows at the edge sources, scale each by
  the edge's norm, scatter-add them at the edge targets), the pooling of node rows by graph id (`pool`: a
  scatter-add over the batch vector, a row whose id is outside 0..63 contributing nothing) and the host tail
  (`tail`: divide by the clamped counts, the last linear map, its bias).  The reference's result is their
  composition.
-/
import proofs.«423938_j11501922419433_1_alg».proof.Proof.Gen.ReferenceIdeal.Read

noncomputable section

namespace Cert.Bridge

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- Node features, 100000 rows of 128. -/
abbrev Nodes (F : FTy → Type) [FloatOps F] := (⟨S100000x128, .f32⟩ : BufTy).Contents (Elt F)
abbrev Mat (F : FTy → Type) [FloatOps F] := (⟨S128x128, .f32⟩ : BufTy).Contents (Elt F)
abbrev Row (F : FTy → Type) [FloatOps F] := (⟨S128, .f32⟩ : BufTy).Contents (Elt F)
abbrev Edges (F : FTy → Type) [FloatOps F] := (⟨S2x1600000, .i32⟩ : BufTy).Contents (Elt F)
abbrev Batch (F : FTy → Type) [FloatOps F] := (⟨S100000, .i32⟩ : BufTy).Contents (Elt F)
abbrev Pooled (F : FTy → Type) [FloatOps F] := (⟨S64x128, .f32⟩ : BufTy).Contents (Elt F)

/-- `a + b` row-wise, then `t ↦ if t ≥ 0 then t else 0.01 · t`. -/
def act (a : Nodes F) (b : Row F) : Nodes F :=
  select (cmpf .oge (addf a (val_main_v42 (F := F) b)) (val_main_v44 (F := F))) (addf a (val_main_v42 (F := F) b))
    (mulf (val_main_v46 (F := F)) (addf a (val_main_v42 (F := F) b)))

/-- Every row times the matrix. -/
def lin (a : Nodes F) (w : Mat F) : Nodes F :=
  Host.dotGeneral dot_S100000x128_S128x128_S100000x128_1_0_0_1_n_n none a w

/-- Gather the rows at the edge sources, scale by the edge norms, scatter-add at the edge targets. -/
def agg (h : Nodes F) (e : Edges F) : Nodes F :=
  Host.scatterAdd scatter_S100000x128_S1700000x1_S1700000x128_1_0_0_1 (val_main_v38 (F := F)) (val_main_v39 (F := F) e)
    (mulf (Host.gather gather_S100000x128_S1700000x1_S1700000x128_1_0_n_n_0_1_1128 h (val_main_v33 (F := F) e)) (val_main_v36 (F := F) e))

/-- The sum of the node rows of each graph. -/
def pool (h : Nodes F) (g : Batch F) : Pooled F :=
  Host.scatterAdd scatter_S64x128_S100000x1_S100000x128_1_0_0_1 (val_main_v71 (F := F)) (val_main_v72 (F := F) g) h

/-- The mean over each graph's nodes, then the last linear map and its bias. -/
def tail (s : Pooled F) (g : Batch F) (w : (⟨S128x1, .f32⟩ : BufTy).Contents (Elt F)) (b : (⟨S1, .f32⟩ : BufTy).Contents (Elt F)) :
    (⟨S64x1, .f32⟩ : BufTy).Contents (Elt F) :=
  addf (Host.dotGeneral dot_S64x128_S128x1_S64x1_1_0_0_1_n_n none (Host.divf s (val_main_v81 (F := F) g)) w) (val_main_v85 (F := F) b)

/-- The reference's result is the composition: two layers of (linear, aggregate, bias, rectifier), pooled, then the tail. -/
theorem ref_eq (x0 : Nodes F) (x1 : Edges F) (x2 : Batch F) (x3 : Mat F) (x4 : Row F) (x5 : Mat F) (x6 : Row F)
    (x7 : (⟨S128x1, .f32⟩ : BufTy).Contents (Elt F)) (x8 : (⟨S1, .f32⟩ : BufTy).Contents (Elt F)) :
    val_main_v86 (F := F) x0 x1 x2 x3 x4 x5 x6 x7 x8
      = tail (pool (act (agg (lin (act (agg (lin x0 x3) x1) x4) x5) x1) x6) x2) x2 x7 x8 := rfl

end Cert.Bridge

end
-- ==== Proof.KI.Val0.lean ====
/-
  The value of region 0: every grid point multiplies its 5000 rows of the node features by the whole 128×128
  matrix, so after the twenty points the output array holds, at row r and column c, the sum over k of
  feature (r, k) times matrix (k, c): the reference's linear layer.  First the product as one function of the
  two arrays, index by index; then the body's payload at an index of its block; then what a point writes back
  is its block of that function; the twenty blocks cover the array; and the function is the reference's
  dot_general read at an index.
-/
import proofs.«423938_j11501922419433_1_alg».proof.Proof.KI.Reg0
import proofs.«423938_j11501922419433_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue.Region0

open Cert.KernelIdeal Cert.KernelIdeal.Gen Cert.KernelIdeal.Hand
open Idealize.ShloMosaic Idealize.ShloMosaic.TcCoe Idealize.SL.Sem
open Idealize.ShloMosaic.Pipeline (Dat)
open scoped BigOperators

/-! ## The product, index by index -/

/-- Row `i 0` of `a` times column `i 1` of `w`: the sum over `k` of `a (i 0, k) * w (k, i 1)`. -/
def rowsTimes (a : (⟨2, ![100000, 128]⟩ : Shape).Idx → EReal) (w : (⟨2, ![128, 128]⟩ : Shape).Idx → EReal) :
    (⟨2, ![100000, 128]⟩ : Shape).Idx → EReal :=
  fun i => ∑ k : Fin 128, a (ValueIdx.ix2 (n0 := 100000) (n1 := 128) (i 0) k) * w (ValueIdx.ix2 (n0 := 128) (n1 := 128) k (i 1))

/-! ## The body's payload at an index of its block -/

theorem lhs_pay_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_pay_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_pay_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_pay_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's row `j 0` against the contraction coordinate `k`, and `k` against the block's column `j 1`. -/
abbrev lidxPay (j : S5000x128.Idx) (k : Fin 128) : S5000x128.Idx := fun a => match a with
  | ⟨0, _⟩ => ⟨(j 0).val, (j 0).isLt⟩
  | ⟨1, _⟩ => ⟨k.val, k.isLt⟩
abbrev ridxPay (j : S5000x128.Idx) (k : Fin 128) : S128x128.Idx := fun a => match a with
  | ⟨0, _⟩ => ⟨k.val, k.isLt⟩
  | ⟨1, _⟩ => ⟨(j 1).val, (j 1).isLt⟩

/-- The payload at an index: the product's sum over the contraction coordinate (the narrowing to bf16 is the
    identity on the extended reals and the accumulator is zero). -/
theorem pay_apply (x0 : Vec Ideal S5000x128 .f32) (x1 : Vec Ideal S128x128 .f32) (j : S5000x128.Idx) :
    k0_pay1 (F := Ideal) x0 x1 j = ∑ k : Fin 128, x0 (lidxPay j k) * x1 (ridxPay j k) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lidxPay j k := funext fun a => Fin.ext (by
    match a with
    | ⟨0, _⟩ => exact lhs_pay_0 _ _
    | ⟨1, _⟩ => exact (lhs_pay_1 _ _).trans hk)
  have er : dot_S5000x128_S128x128_S5000x128_1_0_0_1_n_n.rhsIdx j ((ValueIdx.contrEquiv1 dot_S5000x128_S128x128_S5000x128_1_0_0_1_n_n 128 rfl rfl).symm k) = ridxPay j k := funext fun a => Fin.ext (by
    match a with
    | ⟨0, _⟩ => exact (rhs_pay_0 _ _).trans hk
    | ⟨1, _⟩ => exact rhs_pay_1 _ _)
  rw [ValueIdx.truncf_apply, ValueIdx.truncf_apply, el, er]

/-! ## What a point writes back is its block of the product -/

theorem hz : (![0, 0] : Fin 2 → Nat) = fun _ => 0 := funext fun a => by fin_cases a <;> rfl

/-- The printed index maps over the grid: the feature window and the output window move together down the rows,
    one block of 5000 per point; the matrix window stays at the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- At one point: if the first loaded block is rows `r … r + 4999` of `a` and the second is `w`, the payload at
    the block's index `y` is the product at the array's index `i` = (r + y 0, y 1). -/
theorem point_eq (a : (⟨2, ![100000, 128]⟩ : Shape).Idx → EReal) (w : (⟨2, ![128, 128]⟩ : Shape).Idx → EReal)
    (x0 : Vec Ideal S5000x128 .f32) (x1 : Vec Ideal S128x128 .f32) (r : Nat)
    (h0 : ∀ (y : S5000x128.Idx) (i : S100000x128.Idx), (i 0).val = r + (y 0).val → (i 1).val = (y 1).val → x0 y = a i)
    (h1 : ∀ (y : S128x128.Idx) (i : S128x128.Idx), (i 0).val = (y 0).val → (i 1).val = (y 1).val → x1 y = w i)
    (y : S5000x128.Idx) (i : S100000x128.Idx) (hi0 : (i 0).val = r + (y 0).val) (hi1 : (i 1).val = (y 1).val) :
    k0_pay1 (F := Ideal) x0 x1 y = rowsTimes a w i := by
  rw [pay_apply]
  unfold rowsTimes
  refine Finset.sum_congr rfl fun k _ => ?_
  rw [h0 (lidxPay y k) (ValueIdx.ix2 (n0 := 100000) (n1 := 128) (i 0) k) hi0 rfl,
    h1 (ridxPay y k) (ValueIdx.ix2 (n0 := 128) (n1 := 128) k (i 1)) rfl hi1]

variable (V : (c : Dev nD) → (b : Ref sig .tc) → Buf (Elt Ideal) ((c : Thread nD τ).loc b))

/-- Point `t` writes back block `t` of the product of the two arrays as the region finds them. -/
theorem flushed_eq (c : Dev nD) (t : Fin cfg0.N) :
    (dat0 (F := Ideal) V c).flushed 2 t
      = ((cfg0.win 2).blk t).view.read (Elt Ideal) (rowsTimes (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j
    = rowsTimes (V c main_arg0) (V c main_arg3) (((cfg0.win 2).blk t).view.emb j)
  have hj0 : (j 0).val < 5000 := (j 0).isLt
  have hj1 : (j 1).val < 128 := (j 1).isLt
  refine point_eq _ _ _ _ (t.val * 5000) (fun y i hy0 hy1 => ?_) (fun y i hy0 hy1 => ?_) j _ ?_ ?_
  · have hy0' : (y 0).val < 5000 := (y 0).isLt
    have hy1' : (y 1).val < 128 := (y 1).isLt
    show V c main_arg0 (((cfg0.win 0).blk t).view.emb y) = V c main_arg0 i
    refine congrArg _ (funext fun a => Fin.ext ?_)
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · have hy0' : (y 0).val < 128 := (y 0).isLt
    have hy1' : (y 1).val < 128 := (y 1).isLt
    show V c main_arg3 (((cfg0.win 1).blk t).view.emb y) = V c main_arg3 i
    refine congrArg _ (funext fun a => Fin.ext ?_)
    match a with
    | ⟨0, _⟩ => show win0_1.index t (0 : Fin 2) * 128 + 1 * (y 0).val = (i 0).val; omega
    | ⟨1, _⟩ => show win0_1.index t (1 : Fin 2) * 128 + 1 * (y 1).val = (i 1).val; omega
  · show win0_2.index t (0 : Fin 2) * 5000 + 1 * (j 0).val = t.val * 5000 + (j 0).val; omega
  · show win0_2.index t (1 : Fin 2) * 128 + 1 * (j 1).val = (j 1).val; omega

/-! ## The twenty blocks cover the array -/

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Row `r` is in the block of point `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by omega⟩
  have ht : t.val = (i 0).val / 5000 := rfl
  obtain ⟨e0, e1, e2, e3, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The array after the region -/

/-- The reference's linear layer at an index is the same sum. -/
theorem lin_apply (a : Cert.Bridge.Nodes Ideal) (w : Cert.Bridge.Mat Ideal) (i : (⟨2, ![100000, 128]⟩ : Shape).Idx) :
    Cert.Bridge.lin (F := Ideal) a w i = rowsTimes a w i := by
  show Cert.ReferenceIdeal.Read.val_main_v27 (F := Ideal) a w i = _
  rw [Cert.ReferenceIdeal.Read.val_main_v27_apply]
  unfold rowsTimes
  refine Finset.sum_congr rfl fun k _ => ?_
  have el : Cert.ReferenceIdeal.Read.lidx_main_v27 i k = ValueIdx.ix2 (n0 := 100000) (n1 := 128) (i 0) k :=
    funext fun a => Fin.ext (by match a with | ⟨0, _⟩ => rfl | ⟨1, _⟩ => rfl)
  have er : Cert.ReferenceIdeal.Read.ridx_main_v27 i k = ValueIdx.ix2 (n0 := 128) (n1 := 128) k (i 1) :=
    funext fun a => Fin.ext (by match a with | ⟨0, _⟩ => rfl | ⟨1, _⟩ => rfl)
  rw [el, er]

/-- After the twenty points the output array holds the reference's linear layer of the node features and the
    matrix as the region finds them. -/
theorem arr0_eq (c : Dev nD) :
    (Cert.KernelIdeal.Hand.dat0 (F := Ideal) V c).arrAt 2 cfg0.N
      = Cert.Bridge.lin (F := Ideal) (V c main_arg0) (V c main_arg3) := by
  rw [(dat0 (F := Ideal) V c).arrAt_eq_of_cover 2 (rowsTimes (V c main_arg0) (V c main_arg3))
    (fun t _ => flushed_eq V c t) covered]
  exact funext fun i => (lin_apply (V c main_arg0) (V c main_arg3) i).symm

end Cert.KernelIdeal.HandValue.Region0

end
-- ==== Proof.KI.Val1.lean ====
/-
  The value of region 1 (the second pallas_call): after its 20 grid points the output array holds, at row `r` and
  column `q`, the sum over `k` of the leaky rectifier of (features at `(r, k)` plus bias at `k`) times the matrix at
  `(k, q)` — one whole-array function `G` of the three arrays the region reads.  Each point's payload, read at an
  index, is that sum over its own 5000 rows (the matmul into the zero accumulator re-indexed through its one
  contracted axis; the truncations to bf16 are the identity on the extended reals); the blocks are read where the
  output's rectangle says (block row `t` for the features and the output, block (0, 0) for the bias row and the
  matrix); the point covering row `r` is `r / 5000`; and the reference's linear layer of its rectified biased
  features, read at the same index, is the same sum.
-/
import proofs.«423938_j11501922419433_1_alg».proof.Proof.KI.Reg1
import proofs.«423938_j11501922419433_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue.Region1

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-- The leaky rectifier of a biased entry: `a + b` where that is at least zero, a hundredth of it (the f32 word
    0x3C23D70A) below. -/
def leaky (a b : EReal) : EReal :=
  Scalar.select (FloatOps.cmpf (F := Ideal) (φ := .f32) .oge (a + b) (Ideal.ofBits .f32 0x00000000#32)) (a + b)
    (Ideal.ofBits .f32 0x3C23D70A#32 * (a + b))

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One block's matmul into the zero accumulator, read at `(p, q)`: row `p` of the left block against column `q` of the matrix. -/
theorem blk_matmul_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_blk_0 _ _).trans hk
    | ⟨1, _⟩ => exact rhs_blk_1 _ _)
  rw [el, er]

/-- The body's payload at `(p, q)`: the rectified biased row `p` of the block against column `q` of the matrix. -/
theorem pay_apply (x0 : Vec Ideal S5000x128 .f32) (x1 : Vec Ideal S1x128 .f32) (x2 : Vec Ideal S128x128 .f32) (p : Fin 5000) (q : Fin 128) :
    k1_pay1 x0 x1 x2 (ix2 p q) = ∑ k : Fin 128, leaky (x0 (ix2 p k)) (x1 (ix2 (0 : Fin 1) k)) * x2 (ix2 k q) := by
  unfold k1_pay1
  rw [blk_matmul_apply]
  refine Finset.sum_congr rfl fun k _ => ?_
  simp only [truncf_apply, select_apply, cmpf_apply, mulf_apply, addf_apply, broadcast_apply, shapeCast_self, broadcastTo_1b_ab_apply]
  rfl

theorem hz2 : (![0, 0] : Fin 2 → Nat) = fun _ => 0 := funext fun a => by fin_cases a <;> rfl

/-- The region's result as one function of the three arrays it reads: entry `(r, q)` is the rectified biased row `r`
    of the features against column `q` of the matrix. -/
def G (A : (⟨2, ![100000, 128]⟩ : Shape).Idx → EReal) (B : (⟨2, ![1, 128]⟩ : Shape).Idx → EReal)
    (W : (⟨2, ![128, 128]⟩ : Shape).Idx → EReal) : (⟨2, ![100000, 128]⟩ : Shape).Idx → EReal :=
  fun i => ∑ k : Fin 128, leaky (A (ix2 (i 0) k)) (B (ix2 (0 : Fin 1) k)) * W (ix2 k (i 1))

/-- A block's payload is the block of `G` at its row offset, when the loaded blocks are the arrays read there. -/
theorem pay_read (x0 : Vec Ideal S5000x128 .f32) (x1 : Vec Ideal S1x128 .f32) (x2 : Vec Ideal S128x128 .f32)
    (A : (⟨2, ![100000, 128]⟩ : Shape).Idx → EReal) (B : (⟨2, ![1, 128]⟩ : Shape).Idx → EReal)
    (W : (⟨2, ![128, 128]⟩ : Shape).Idx → EReal) (r : Nat)
    (h0 : ∀ (p : Fin 5000) (k : Fin 128) (i : (⟨2, ![100000, 128]⟩ : Shape).Idx), (i 0).val = r + p.val → (i 1).val = k.val → x0 (ix2 p k) = A i)
    (h1 : x1 = B) (h2 : x2 = W)
    (j : S5000x128.Idx) (i : (⟨2, ![100000, 128]⟩ : Shape).Idx) (hi0 : (i 0).val = r + (j 0).val) (hi1 : (i 1).val = (j 1).val) :
    k1_pay1 x0 x1 x2 j = G A B W i := by
  obtain ⟨p, q, rfl⟩ : ∃ (p : Fin 5000) (q : Fin 128), j = ix2 p q := ⟨j 0, j 1, eq_ix2 j⟩
  rw [pay_apply]
  unfold G
  subst h1; subst h2
  refine Finset.sum_congr rfl fun k _ => ?_
  rw [h0 p k (ix2 (i 0) k) hi0 rfl]
  have e : (ix2 k (i 1) : (⟨2, ![128, 128]⟩ : Shape).Idx) = ix2 k q := by
    funext a; match a with
    | ⟨0, _⟩ => rfl
    | ⟨1, _⟩ => exact Fin.ext hi1
  rw [e]

/-- The printed index maps over the grid: the feature block and the output block of point `t` are block row `t`,
    the bias row and the matrix are block (0, 0) at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `G` of the three arrays as the region finds them. -/
theorem flushed_eq (c : Dev nD) (t : Fin cfg1.N) :
    (dat1 (F := Ideal) V c).flushed 3 t = ((cfg1.win 3).blk t).view.read (Elt Ideal) (G (V c main_v40) (V c main_v41) (V c main_arg5)) := by
  show (cfg1.win 3).cut (grid1.coords t) ((dat1 (F := Ideal) V c).after 3 t) = _
  rw [after1_3]
  unfold out1_3
  rw [View.canon_unit_zero hz2]
  simp only [View.ld_unit_zero (S := S5000x128) hz2, View.ld_unit_zero (S := S1x128) hz2, View.ld_unit_zero (S := S128x128) hz2]
  obtain ⟨e00, e01, e10, e11, e20, e21, e30, e31⟩ := idx_facts1 t
  funext j
  show k1_pay1 (iblk1 V c 0 t) (iblk1 V c 1 t) (iblk1 V c 2 t) ((cfg1.win 3).xinj (grid1.coords t) j)
    = G (V c main_v40) (V c main_v41) (V c main_arg5) (((cfg1.win 3).blk t).view.emb j)
  refine pay_read _ _ _ _ _ _ (5000 * t.val) ?_ ?_ ?_ _ _ ?_ ?_
  · intro p k i hi0 hi1
    show V c main_v40 (((cfg1.win 0).blk t).view.emb (ix2 p k)) = V c main_v40 i
    refine congrArg _ (funext fun a => Fin.ext ?_)
    match a with
    | ⟨0, _⟩ => show win1_0.index t (0 : Fin 2) * 5000 + 1 * p.val = (i 0).val; omega
    | ⟨1, _⟩ => show win1_0.index t (1 : Fin 2) * 128 + 1 * k.val = (i 1).val; omega
  · funext y
    show V c main_v41 (((cfg1.win 1).blk t).view.emb y) = V c main_v41 y
    refine congrArg _ (funext fun a => Fin.ext ?_)
    match a with
    | ⟨0, _⟩ => show win1_1.index t (0 : Fin 2) * 1 + 1 * (y 0).val = (y 0).val; omega
    | ⟨1, _⟩ => show win1_1.index t (1 : Fin 2) * 128 + 1 * (y 1).val = (y 1).val; omega
  · funext y
    show V c main_arg5 (((cfg1.win 2).blk t).view.emb y) = V c main_arg5 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · show win1_3.index t (0 : Fin 2) * 5000 + 1 * (j 0).val = 5000 * t.val + (j 0).val; omega
  · show win1_3.index t (1 : Fin 2) * 128 + 1 * (j 1).val = (j 1).val; omega

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v42).slice (win1_3.rect t)).set ↔ _
  rw [View.set_slice_whole, Rect.mem_set_unit]
  exact Iff.rfl

/-- Every row of the output lies in the block of the point numbered by the row over 5000. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk1]
  obtain ⟨-, -, -, -, -, -, e30, e31⟩ := idx_facts1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e30]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e31]; omega

/-- The output array after the region: `G` of the three arrays it read. -/
theorem arr1_G (c : Dev nD) :
    (dat1 (F := Ideal) V c).arrAt 3 cfg1.N = G (V c main_v40) (V c main_v41) (V c main_arg5) :=
  (dat1 (F := Ideal) V c).arrAt_eq_of_cover 3 (G (V c main_v40) (V c main_v41) (V c main_arg5)) (fun t _ => flushed_eq V c t) cover1

/-- `G` at a row and a column. -/
theorem G_apply (A : (⟨2, ![100000, 128]⟩ : Shape).Idx → EReal) (B : (⟨2, ![1, 128]⟩ : Shape).Idx → EReal)
    (W : (⟨2, ![128, 128]⟩ : Shape).Idx → EReal) (r : Fin 100000) (q : Fin 128) :
    G A B W (ix2 r q) = ∑ k : Fin 128, leaky (A (ix2 r k)) (B (ix2 (0 : Fin 1) k)) * W (ix2 k q) := rfl

/-- The reference's linear layer at a row and a column: that row of the left array against that column of the matrix. -/
theorem lin_apply (a : Cert.Bridge.Nodes Ideal) (w : Cert.Bridge.Mat Ideal) (r : Fin 100000) (q : Fin 128) :
    Cert.Bridge.lin (F := Ideal) a w (ix2 r q) = ∑ k : Fin 128, a (ix2 r k) * w (ix2 k q) := by
  show Cert.ReferenceIdeal.Read.val_main_v27 (F := Ideal) a w (ix2 r q) = _
  rw [Cert.ReferenceIdeal.Read.val_main_v27_apply]
  refine Finset.sum_congr rfl fun k _ => ?_
  have el : Cert.ReferenceIdeal.Read.lidx_main_v27 (ix2 r q) k = ix2 r k := funext fun d => by
    match d with
    | ⟨0, _⟩ => rfl
    | ⟨1, _⟩ => rfl
  have er : Cert.ReferenceIdeal.Read.ridx_main_v27 (ix2 r q) k = ix2 k q := funext fun d => by
    match d with
    | ⟨0, _⟩ => rfl
    | ⟨1, _⟩ => rfl
  rw [el, er]

/-- The reference's bias-and-rectifier stage at a row and a column. -/
theorem act_apply (a : Cert.Bridge.Nodes Ideal) (b : Cert.Bridge.Row Ideal) (r : Fin 100000) (k : Fin 128) :
    Cert.Bridge.act (F := Ideal) a b (ix2 r k) = leaky (a (ix2 r k)) (b (ix1 k)) := by
  unfold Cert.Bridge.act leaky
  simp only [select_apply, cmpf_apply, addf_apply, mulf_apply]
  rw [Cert.ReferenceIdeal.Read.val_main_v42_apply, Cert.ReferenceIdeal.Read.val_main_v41_apply,
    Cert.ReferenceIdeal.Read.val_main_v44_apply, Cert.ReferenceIdeal.Read.val_main_cst_7_apply,
    Cert.ReferenceIdeal.Read.val_main_v46_apply, Cert.ReferenceIdeal.Read.val_main_cst_8_apply]
  have eb : Cert.ReferenceIdeal.Read.idx_main_v41 (Cert.ReferenceIdeal.Read.idx_main_v42 (ix2 r k)) = ix1 k := funext fun d => by
    match d with
    | ⟨0, _⟩ => rfl
  rw [eb]
  rfl

/-- The output array after the region is the reference's linear layer of its rectified biased features, when the
    staged bias row is the bias vector laid as a row (stated column by column). -/
theorem arr1_eq_row (c : Dev nD) (b : Cert.Bridge.Row Ideal) (hb : ∀ k : Fin 128, V c main_v41 (ix2 (0 : Fin 1) k) = b (ix1 k)) :
    (dat1 (F := Ideal) V c).arrAt 3 cfg1.N
      = Cert.Bridge.lin (F := Ideal) (Cert.Bridge.act (F := Ideal) (V c main_v40) b) (V c main_arg5) := by
  rw [arr1_G]
  funext i
  obtain ⟨r, q, rfl⟩ : ∃ (r : Fin 100000) (q : Fin 128), i = ix2 r q := ⟨i 0, i 1, eq_ix2 i⟩
  rw [lin_apply, G_apply]
  refine Finset.sum_congr rfl fun k _ => ?_
  rw [act_apply, hb]

/-- The same with the bias hypothesis stated at every index of the staged row, through the reference's own index map
    of its row-vector broadcast. -/
theorem arr1_eq (c : Dev nD) (b : Cert.Bridge.Row Ideal)
    (hb : ∀ j : S1x128.Idx, V c main_v41 j = b (Cert.ReferenceIdeal.Read.idx_main_v41 j)) :
    (dat1 (F := Ideal) V c).arrAt 3 cfg1.N
      = Cert.Bridge.lin (F := Ideal) (Cert.Bridge.act (F := Ideal) (V c main_v40) b) (V c main_arg5) := by
  refine arr1_eq_row V c b fun k => (hb (ix2 (0 : Fin 1) k)).trans (congrArg b (funext fun d => ?_))
  match d with
  | ⟨0, _⟩ => rfl

end Cert.KernelIdeal.HandValue.Region1

end
-- ==== Proof.PoolSpec.lean ====
/-
  The pooling region's result in closed form, and the law that joins it to the reference's pooling scatter.
  The kernel contracts, block of 5000 rows by block, a one-hot membership matrix (entry (n, g) is 1 when node n's
  graph id is g and 0 otherwise) with the node rows, and adds the twenty partial products up; the reference
  scatter-adds every node row at its graph id, a row whose id is outside 0..63 contributing nothing.  Both are,
  entry (g, d), the sum over the nodes n of graph g of row n's entry d: on the extended reals 0 · x = 0 and
  1 · x = x for every x, the infinities included, and a finite sum may be split and reordered freely.
-/
import proofs.«423938_j11501922419433_1_alg».proof.Proof.Spec
import Idealize.ShloMosaic.Lib.ValueIdx
import Idealize.ShloMosaic.PureOps.Ideal.Laws
import Mathlib.Algebra.BigOperators.Fin
import Mathlib.Algebra.BigOperators.Ring.Finset
import Mathlib.Data.EReal.Basic

noncomputable section

namespace Cert.Bridge

open Cert.ReferenceIdeal Cert.ReferenceIdeal.Gen Cert.ReferenceIdeal.Read
open Idealize.ShloMosaic Idealize.ShloMosaic.TcCoe Idealize.SL.Sem Idealize.ShloMosaic.StableHlo

/-- Node `5000 · t + r`: row `r` of block `t`. -/
def nodeOf (t : Fin 20) (r : Fin 5000) : Fin 100000 := ⟨5000 * t.val + r.val, by omega⟩

/-- The shape of the membership matrix: 100000 nodes by 64 graphs. -/
abbrev S100000x64 : Shape := ⟨2, ![100000, 64]⟩

/-- The index of a node in a vector over the nodes. -/
def nodeIdx (n : Fin 100000) : S100000.Idx := fun a => match a with | ⟨0, _⟩ => n

/-- The kernel's pooled sums: the twenty blocks' contractions added up in grid order, starting from zero. -/
def poolSum (oh : (⟨S100000x64, .bf16⟩ : BufTy).Contents (Elt Ideal)) (h : Nodes Ideal) : Pooled Ideal := fun j =>
  ∑ t : Fin 20, ∑ r : Fin 5000, (oh (ValueIdx.ix2 (nodeOf t r) (j 0 : Fin 64)) : EReal) * h (ValueIdx.ix2 (nodeOf t r) (j 1 : Fin 128))

/-- The one-hot membership matrix of a batch vector: 1 where the node's graph id (a 32-bit word) is the column's number, 0 elsewhere. -/
def oneHot (g : Batch Ideal) : (⟨S100000x64, .bf16⟩ : BufTy).Contents (Elt Ideal) := fun j =>
  if g (nodeIdx (j 0 : Fin 100000)) = BitVec.ofNat 32 (j 1).val then (1 : EReal) else 0

/-- The pooling scatter's dimension numbers: one window axis (the feature axis), the graph axis inserted, the
    one start-index component naming the graph axis. -/
abbrev dP := scatter_S64x128_S100000x1_S100000x128_1_0_0_1

/-- Update index `(n, d)` reads its start index at row `n` of the one-column index array. -/
theorem siIdx_pool (j : S100000x128.Idx) (c : Fin dP.scatterDimsToOperandDims.length) :
    dP.siIdx j c = ValueIdx.ix2 (j 0) 0 := by
  funext b
  match b with
  | ⟨0, _⟩ =>
    apply Fin.ext
    rfl
  | ⟨1, _⟩ =>
    apply Fin.ext
    have := c.isLt
    show c.val = 0
    have h1 : dP.scatterDimsToOperandDims.length = 1 := rfl
    omega

/-- On the graph axis the window starts at the index word read signed. -/
theorem start0_pool (j : S100000x128.Idx) (idx : IVec S100000x1 32) :
    dP.start j idx 0 = (idx (ValueIdx.ix2 (j 0) 0)).toInt := by
  unfold ScatterDims.start
  rw [dif_pos (by decide), siIdx_pool]
  rfl

/-- On the feature axis the window starts at 0. -/
theorem start1_pool (j : S100000x128.Idx) (idx : IVec S100000x1 32) :
    dP.start j idx 1 = 0 := by
  unfold ScatterDims.start
  rw [dif_neg (by decide)]

/-- The graph axis is inserted: window coordinate 0. -/
theorem window0_pool (j : S100000x128.Idx) : dP.window j 0 = 0 := by
  unfold ScatterDims.window
  rw [dif_neg (by decide)]

/-- The feature axis carries the update's feature coordinate. -/
theorem window1_pool (j : S100000x128.Idx) : dP.window j 1 = (j 1).val := by
  unfold ScatterDims.window
  rw [dif_pos (by decide)]
  rfl

/-- An update `(n, d)` lands on result entry `(q, d')` exactly when the index word of row `n`, read signed, is `q`
    and `d = d'`; a word outside 0..63 lands nowhere. -/
theorem resultIdx_pool (j : S100000x128.Idx) (idx : IVec S100000x1 32) (i : S64x128.Idx) :
    dP.resultIdx? j idx = some i ↔
      (idx (ValueIdx.ix2 (j 0) 0)).toInt = ((i 0).val : Int) ∧ j 1 = i 1 := by
  have hi0 : (i 0).val < 64 := (i 0).isLt
  have hj1 : (j 1).val < 128 := (j 1).isLt
  have hs0 : S64x128.size 0 = 64 := rfl
  have hs1 : S64x128.size 1 = 128 := rfl
  unfold ScatterDims.resultIdx?
  split
  · rename_i hc
    have hc0 := hc 0
    rw [start0_pool, window0_pool, hs0] at hc0
    rw [Option.some.injEq]
    constructor
    · intro e
      have e0 := congrArg (fun f => (f 0).val) e
      have e1 := congrArg (fun f => (f 1).val) e
      simp only [] at e0 e1
      rw [start0_pool, window0_pool] at e0
      rw [start1_pool, window1_pool] at e1
      refine ⟨by omega, Fin.ext (by omega)⟩
    · rintro ⟨e0, e1⟩
      funext a
      match a with
      | ⟨0, _⟩ =>
        apply Fin.ext
        show (dP.start j idx 0 + ↑(dP.window j 0)).toNat = (i 0).val
        rw [start0_pool, window0_pool]
        omega
      | ⟨1, _⟩ =>
        apply Fin.ext
        show (dP.start j idx 1 + ↑(dP.window j 1)).toNat = (i 1).val
        rw [start1_pool, window1_pool, e1]
        omega
  · rename_i hc
    constructor
    · intro e
      exact absurd e (by simp)
    · rintro ⟨e0, e1⟩
      exfalso
      apply hc
      intro a
      match a with
      | ⟨0, _⟩ =>
        show 0 ≤ dP.start j idx 0 + ↑(dP.window j 0) ∧ dP.start j idx 0 + ↑(dP.window j 0) < ↑(S64x128.size 0)
        rw [start0_pool, window0_pool, hs0]
        omega
      | ⟨1, _⟩ =>
        show 0 ≤ dP.start j idx 1 + ↑(dP.window j 1) ∧ dP.start j idx 1 + ↑(dP.window j 1) < ↑(S64x128.size 1)
        rw [start1_pool, window1_pool, hs1]
        omega

/-- A 32-bit word reads signed as a number below 64 exactly when it is that number's word. -/
theorem toInt_eq_iff_word (w : BitVec 32) (q : Nat) (hq : q < 64) :
    w.toInt = (q : Int) ↔ w = BitVec.ofNat 32 q := by
  constructor
  · intro e
    apply BitVec.eq_of_toNat_eq
    rw [BitVec.toNat_ofNat]
    rw [BitVec.toInt_eq_toNat_cond] at e
    have := w.isLt
    split at e <;> omega
  · rintro rfl
    rw [BitVec.toInt_eq_toNat_cond, BitVec.toNat_ofNat]
    split <;> omega

/-- Blocks of 5000 rows tile the 100000 nodes: `(t, r) ↦ 5000 · t + r` is a bijection. -/
def nodeEquiv : Fin 20 × Fin 5000 ≃ Fin 100000 where
  toFun p := nodeOf p.1 p.2
  invFun n := (⟨n.val / 5000, by have := n.isLt; omega⟩, ⟨n.val % 5000, by omega⟩)
  left_inv := by
    rintro ⟨t, r⟩
    have ht := t.isLt
    have hr := r.isLt
    apply Prod.ext
    · apply Fin.ext
      show (5000 * t.val + r.val) / 5000 = t.val
      omega
    · apply Fin.ext
      show (5000 * t.val + r.val) % 5000 = r.val
      omega
  right_inv := by
    intro n
    apply Fin.ext
    show 5000 * (n.val / 5000) + n.val % 5000 = n.val
    omega

/-- A double sum over blocks and rows within a block is the sum over the nodes. -/
theorem sum_nodeOf {M : Type*} [AddCommMonoid M] (f : Fin 100000 → M) :
    ∑ t : Fin 20, ∑ r : Fin 5000, f (nodeOf t r) = ∑ n : Fin 100000, f n := by
  rw [← Equiv.sum_comp nodeEquiv f, Fintype.sum_prod_type]
  rfl

/-- THE LAW: the blockwise one-hot contraction is the reference's scatter-add over the batch vector. -/
theorem poolSum_oneHot (g : Batch Ideal) (h : Nodes Ideal) : poolSum (oneHot g) h = pool (F := Ideal) h g := by
  funext i
  obtain ⟨q, e, rfl⟩ : ∃ (q : Fin 64) (e : Fin 128), i = ValueIdx.ix2 q e := ⟨i 0, i 1, ValueIdx.eq_ix2 i⟩
  -- the kernel's side: the one-hot factor keeps the rows of graph `q`, summed over all the nodes
  have hL : poolSum (oneHot g) h (ValueIdx.ix2 q e)
      = ∑ n : Fin 100000, if g (nodeIdx n) = BitVec.ofNat 32 q.val then h (ValueIdx.ix2 n e) else 0 := by
    unfold poolSum
    refine (sum_nodeOf (fun n : Fin 100000 =>
      (oneHot g (ValueIdx.ix2 n q) : EReal) * h (ValueIdx.ix2 n e))).trans ?_
    refine Finset.sum_congr rfl fun n _ => ?_
    show (if g (nodeIdx n) = BitVec.ofNat 32 q.val then (1 : EReal) else 0) * h (ValueIdx.ix2 n e) = _
    rw [ite_mul, one_mul, zero_mul]
  -- the reference's side: the updates that land on entry `(q, e)` are the rows of graph `q` at feature `e`
  have hP : ∀ (n : Fin 100000) (d : Fin 128),
      dP.resultIdx? (ValueIdx.ix2 n d) (val_main_v72 g) = some (ValueIdx.ix2 q e)
        ↔ (g (nodeIdx n) = BitVec.ofNat 32 q.val ∧ d = e) := by
    intro n d
    rw [resultIdx_pool, val_main_v72_apply]
    have hn : idx_main_v72 (ValueIdx.ix2 ((ValueIdx.ix2 n d : S100000x128.Idx) 0) (0 : Fin 1)) = nodeIdx n := by
      funext a
      match a with
      | ⟨0, _⟩ => rfl
    rw [hn]
    show (g (nodeIdx n)).toInt = (q.val : Int) ∧ d = e ↔ _
    rw [toInt_eq_iff_word _ _ q.isLt]
  have hR : ∑ j with dP.resultIdx? j (val_main_v72 g) = some (ValueIdx.ix2 q e), h j
      = ∑ n : Fin 100000, if g (nodeIdx n) = BitVec.ofNat 32 q.val then h (ValueIdx.ix2 n e) else 0 := by
    rw [Finset.sum_filter, ValueIdx.sum_idx2]
    refine Finset.sum_congr rfl fun n _ => ?_
    by_cases hA : g (nodeIdx n) = BitVec.ofNat 32 q.val
    · have hd : ∀ d : Fin 128,
          (if dP.resultIdx? (ValueIdx.ix2 n d) (val_main_v72 g) = some (ValueIdx.ix2 q e) then h (ValueIdx.ix2 n d) else 0)
            = if d = e then h (ValueIdx.ix2 n d) else 0 :=
        fun d => if_congr ((hP n d).trans (and_iff_right hA)) rfl rfl
      refine (Finset.sum_congr rfl (fun d _ => hd d)).trans ?_
      refine (Finset.sum_ite_eq' Finset.univ e (fun d => h (ValueIdx.ix2 n d))).trans ?_
      rw [if_pos (Finset.mem_univ _), if_pos hA]
    · have hd : ∀ d : Fin 128,
          (if dP.resultIdx? (ValueIdx.ix2 n d) (val_main_v72 g) = some (ValueIdx.ix2 q e) then h (ValueIdx.ix2 n d) else 0)
            = 0 :=
        fun d => if_neg (fun hc => hA ((hP n d).1 hc).1)
      refine (Finset.sum_congr rfl (fun d _ => hd d)).trans ?_
      rw [Finset.sum_const_zero, if_neg hA]
  unfold pool Host.scatterAdd
  rw [Ideal.hostScatterAdd_def]
  unfold Ideal.hostScatterAdd
  rw [val_main_v71_apply, val_main_cst_14_apply]
  show _ = Ideal.ofBits .f32 0x00000000#32 + _
  rw [Ideal.ofBits_zero_f32, zero_add, hL]
  exact hR.symm

end Cert.Bridge

end
-- ==== Proof.KI.Val2.lean ====
/-
  The value of region 2, the pooling: over the twenty grid points a 64×128 accumulator is zeroed, then at every
  point gains the contraction, over the 5000 rows of the point's block, of the one-hot membership block with the
  rectified, bias-shifted feature block; the last point copies it out.  So the output array holds, at graph q and
  column d, the sum over the blocks t and the rows r of membership (5000 t + r, q) times the activation at
  (5000 t + r, d).  First what each case's stores leave, as the payload of the loaded blocks; then the payload at
  an index; then the accumulator after each point by induction; then the one write-back and the array.
-/
import proofs.«423938_j11501922419433_1_alg».proof.Proof.KI.Reg2
import proofs.«423938_j11501922419433_1_alg».proof.Proof.PoolSpec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws
import Mathlib.Algebra.BigOperators.Fin
import Mathlib.Data.Fintype.BigOperators

noncomputable section

namespace Cert.KernelIdeal.HandValue.Region2

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open scoped BigOperators

/-! ## What each case's stores leave -/

section Pieces
variable {F : FTy → Type} [FloatOps F]

theorem hz2 : (![0, 0] : Fin 2 → Nat) = fun _ => 0 := funext fun a => by fin_cases a <;> rfl

/-- The first point: the accumulator is zeroed, read back, and the point's contraction added. -/
theorem soutA_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : cond2_0 i) (hc1 : ¬cond2_1 i)
    (x0 : Vec F S5000x128 .f32) (x1 : Vec F S1x128 .f32) (x2 : Vec F S5000x64 .bf16) :
    sout2_A c i arg1 harg1 arg2 harg2 arg3 harg3 arg4 harg4 arg5 harg5 hc0 hc1 x0 x1 x2 = k2_pay2 x0 x1 x2 (k2_pay1 (F := F)) := by
  unfold sout2_A
  rw [View.read_writes_eq_canon _ _ _ (scover2_A c i arg1 harg1 arg2 harg2 arg3 harg3 arg4 harg4 arg5 harg5 hc0 hc1 x0 x1 x2)]
  unfold kernelRun2_A
  dsimp only
  sl_unfold_words
  rw [View.canon_cons_unit_zero (S := S64x128) hz2, View.readCov_unit_zero (S := S64x128) _ hz2]
  simp only [View.readAt_eq_ld, harg1.read_unread, harg2.read_unread, harg3.read_unread,
    View.ld_unit_zero (S := S5000x128) hz2, View.ld_unit_zero (S := S1x128) hz2, View.ld_unit_zero (S := S5000x64) hz2]

/-- An inner point: the point's contraction added onto what the accumulator held. -/
theorem soutB_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : ¬cond2_1 i)
    (x0 : Vec F S5000x128 .f32) (x1 : Vec F S1x128 .f32) (x2 : Vec F S5000x64 .bf16) (xs : Vec F S64x128 .f32) :
    sout2_B c i arg1 harg1 arg2 harg2 arg3 harg3 arg4 harg4 arg5 harg5 hc0 hc1 x0 x1 x2 xs = k2_pay2 x0 x1 x2 xs := by
  unfold sout2_B
  rw [View.read_writes_eq_canon _ _ _ (scover2_B c i arg1 harg1 arg2 harg2 arg3 harg3 arg4 harg4 arg5 harg5 hc0 hc1 x0 x1 x2 xs)]
  unfold kernelRun2_B
  dsimp only
  sl_unfold_words
  rw [View.canon_unit_zero hz2]
  simp only [View.readAt_eq_ld, harg1.read_unread, harg2.read_unread, harg3.read_unread, harg5.read_unread,
    View.ld_unit_zero (S := S5000x128) hz2, View.ld_unit_zero (S := S1x128) hz2, View.ld_unit_zero (S := S5000x64) hz2,
    View.ld_unit_zero (S := S64x128) hz2]

/-- The last point leaves the same in the accumulator, -/
theorem soutC_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) :
    sout2_C c i arg1 harg1 arg2 harg2 arg3 harg3 arg4 harg4 arg5 harg5 hc0 hc1 x0 x1 x2 xs = k2_pay2 x0 x1 x2 xs := by
  unfold sout2_C
  rw [View.read_writes_eq_canon _ _ _ (scover2_C c i arg1 harg1 arg2 harg2 arg3 harg3 arg4 harg4 arg5 harg5 hc0 hc1 x0 x1 x2 xs)]
  unfold kernelRun2_C
  dsimp only
  sl_unfold_words
  rw [View.canon_unit_zero hz2]
  simp only [View.readAt_eq_ld, harg1.read_unread, harg2.read_unread, harg3.read_unread, harg5.read_unread,
    View.ld_unit_zero (S := S5000x128) hz2, View.ld_unit_zero (S := S1x128) hz2, View.ld_unit_zero (S := S5000x64) hz2,
    View.ld_unit_zero (S := S64x128) hz2]

/-- and copies it, read back, to the output block. -/
theorem outC_eq (c : Dev nD) (i : grid2.Coords) (arg1 : Memref sig .tc .vmem S5000x128 .f32) (harg1 : arg1.IsWhole) (arg2 : Memref sig .tc .vmem S1x128 .f32) (harg2 : arg2.IsWhole) (arg3 : Memref sig .tc .vmem S5000x64 .bf16) (harg3 : arg3.IsWhole) (arg4 : Memref sig .tc .vmem S64x128 .f32) (harg4 : arg4.IsWhole) (arg5 : Memref sig .tc .vmem S64x128 .f32) (harg5 : arg5.IsWhole) (hc0 : ¬cond2_0 i) (hc1 : cond2_1 i)
    (x0 : Vec F S5000x128 .f32) (x1 : Vec F S1x128 .f32) (x2 : Vec F S5000x64 .bf16) (xs : Vec F S64x128 .f32) :
    out2_C c i arg1 harg1 arg2 harg2 arg3 harg3 arg4 harg4 arg5 harg5 hc0 hc1 x0 x1 x2 xs = k2_pay2 x0 x1 x2 xs := by
  unfold out2_C
  rw [View.read_writes_eq_canon _ _ _ (cover2_C c i arg1 harg1 arg2 harg2 arg3 harg3 arg4 harg4 arg5 harg5 hc0 hc1 x0 x1 x2 xs)]
  unfold kernelRun2_C
  dsimp only
  sl_unfold_words
  rw [View.canon_unit_zero hz2, View.readCov_unit_zero (S := S64x128) _ hz2]
  simp only [View.readAt_eq_ld, harg1.read_unread, harg2.read_unread, harg3.read_unread, harg5.read_unread,
    View.ld_unit_zero (S := S5000x128) hz2, View.ld_unit_zero (S := S1x128) hz2, View.ld_unit_zero (S := S5000x64) hz2,
    View.ld_unit_zero (S := S64x128) hz2]

end Pieces

/-! ## The payloads at an index -/

theorem lhs2_0 (j : S64x128.Idx) (q : dot_S5000x64_S5000x128_S64x128_0_0_1_1_n_n.contr.Idx) :
    (dot_S5000x64_S5000x128_S64x128_0_0_1_1_n_n.lhsIdx j q 0).val = (q ⟨0, by decide⟩).val :=
  dot_S5000x64_S5000x128_S64x128_0_0_1_1_n_n.lhsIdx_val_of_single rfl j q
theorem lhs2_1 (j : S64x128.Idx) (q : dot_S5000x64_S5000x128_S64x128_0_0_1_1_n_n.contr.Idx) :
    (dot_S5000x64_S5000x128_S64x128_0_0_1_1_n_n.lhsIdx j q 1).val = (j 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs2_0 (j : S64x128.Idx) (q : dot_S5000x64_S5000x128_S64x128_0_0_1_1_n_n.contr.Idx) :
    (dot_S5000x64_S5000x128_S64x128_0_0_1_1_n_n.rhsIdx j q 0).val = (q ⟨0, by decide⟩).val :=
  dot_S5000x64_S5000x128_S64x128_0_0_1_1_n_n.rhsIdx_val_of_single rfl j q
theorem rhs2_1 (j : S64x128.Idx) (q : dot_S5000x64_S5000x128_S64x128_0_0_1_1_n_n.contr.Idx) :
    (dot_S5000x64_S5000x128_S64x128_0_0_1_1_n_n.rhsIdx j q 1).val = (j 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The rectifier: `y` where `y ≥ 0`, the constant 0.01 (kept as its word) times `y` elsewhere. -/
def leaky (y : Ideal .f32) : Ideal .f32 :=
  Scalar.select (FloatOps.cmpf .oge y (FloatOps.ofBits (F := Ideal) .f32 0x00000000#32)) y
    (FloatOps.mulf (FloatOps.ofBits (F := Ideal) .f32 0x3C23D70A#32) y)

/-- The zero block is zero. -/
theorem pay1_apply (j : S64x128.Idx) : k2_pay1 (F := Ideal) j = 0 := by
  unfold k2_pay1
  simp only [shapeCast_self]
  exact Ideal.ofBits_zero_f32

/-- The update at graph `q`, column `d`: what the accumulator held plus the sum over the block's rows `r` of
    membership (r, q) times the rectified (feature (r, d) + bias d). -/
theorem pay2_apply (x0 : Vec Ideal S5000x128 .f32) (x1 : Vec Ideal S1x128 .f32) (x2 : Vec Ideal S5000x64 .bf16)
    (xs : Vec Ideal S64x128 .f32) (q : Fin 64) (d : Fin 128) :
    k2_pay2 (F := Ideal) x0 x1 x2 xs (ValueIdx.ix2 (n0 := 64) (n1 := 128) q d)
      = xs (ValueIdx.ix2 (n0 := 64) (n1 := 128) q d) + ∑ r : Fin 5000, x2 (ValueIdx.ix2 (n0 := 5000) (n1 := 64) r q)
          * leaky (x0 (ValueIdx.ix2 (n0 := 5000) (n1 := 128) r d) + x1 (ValueIdx.ix2 (n0 := 1) (n1 := 128) (0 : Fin 1) d)) := by
  unfold k2_pay2
  simp only [shapeCast_self, matmul]
  show xs _ + FloatOps.matmul (F := Ideal) _ none x2 _ (constant (F := Ideal) S64x128 .f32 0x00000000#32) _ = _
  refine congrArg (xs (ValueIdx.ix2 (n0 := 64) (n1 := 128) q d) + ·) ?_
  rw [Ideal.matmul_constant_zero_apply, ← Equiv.sum_comp (ValueIdx.contrEquiv1 dot_S5000x64_S5000x128_S64x128_0_0_1_1_n_n 5000 rfl rfl).symm]
  refine Finset.sum_congr rfl fun r _ => ?_
  have hk := ValueIdx.contrEquiv1_symm_val dot_S5000x64_S5000x128_S64x128_0_0_1_1_n_n 5000 rfl rfl r
  have el : dot_S5000x64_S5000x128_S64x128_0_0_1_1_n_n.lhsIdx (ValueIdx.ix2 (n0 := 64) (n1 := 128) q d) ((ValueIdx.contrEquiv1 dot_S5000x64_S5000x128_S64x128_0_0_1_1_n_n 5000 rfl rfl).symm r) = ValueIdx.ix2 (n0 := 5000) (n1 := 64) r q := funext fun a => Fin.ext (by
    match a with
    | ⟨0, _⟩ => exact (lhs2_0 _ _).trans hk
    | ⟨1, _⟩ => exact lhs2_1 _ _)
  have er : dot_S5000x64_S5000x128_S64x128_0_0_1_1_n_n.rhsIdx (ValueIdx.ix2 (n0 := 64) (n1 := 128) q d) ((ValueIdx.contrEquiv1 dot_S5000x64_S5000x128_S64x128_0_0_1_1_n_n 5000 rfl rfl).symm r) = ValueIdx.ix2 (n0 := 5000) (n1 := 128) r d := funext fun a => Fin.ext (by
    match a with
    | ⟨0, _⟩ => exact (rhs2_0 _ _).trans hk
    | ⟨1, _⟩ => exact rhs2_1 _ _)
  rw [el, er]
  refine congrArg (x2 (ValueIdx.ix2 (n0 := 5000) (n1 := 64) r q) * ·) ?_
  have eb : broadcastTo S5000x128 x1 broadcasts_S1x128_S5000x128 (ValueIdx.ix2 (n0 := 5000) (n1 := 128) r d) = x1 (ValueIdx.ix2 (n0 := 1) (n1 := 128) (0 : Fin 1) d) :=
    ValueIdx.broadcastTo_1b_ab_apply x1 broadcasts_S1x128_S5000x128 r d
  show leaky (x0 (ValueIdx.ix2 (n0 := 5000) (n1 := 128) r d) + broadcastTo S5000x128 x1 broadcasts_S1x128_S5000x128 (ValueIdx.ix2 (n0 := 5000) (n1 := 128) r d)) = _
  rw [eb]

/-- The reference's activation at node `n`, column `d`: the rectified (feature + bias). -/
theorem act_apply (a : Cert.Bridge.Nodes Ideal) (b : Cert.Bridge.Row Ideal) (n : Fin 100000) (d : Fin 128) :
    Cert.Bridge.act (F := Ideal) a b (ValueIdx.ix2 (n0 := 100000) (n1 := 128) n d)
      = leaky (a (ValueIdx.ix2 (n0 := 100000) (n1 := 128) n d) + b (Cert.ReferenceIdeal.Read.idx_main_v41 (ValueIdx.ix2 (n0 := 1) (n1 := 128) (0 : Fin 1) d))) := by
  have e : Cert.ReferenceIdeal.Read.idx_main_v42 (ValueIdx.ix2 (n0 := 100000) (n1 := 128) n d) = ValueIdx.ix2 (n0 := 1) (n1 := 128) (0 : Fin 1) d :=
    funext fun a => by match a with | ⟨0, _⟩ => rfl | ⟨1, _⟩ => rfl
  unfold Cert.Bridge.act
  show Scalar.select (FloatOps.cmpf (F := Ideal) (φ := .f32) .oge (a (ValueIdx.ix2 (n0 := 100000) (n1 := 128) n d) + Cert.ReferenceIdeal.Read.val_main_v42 (F := Ideal) b (ValueIdx.ix2 (n0 := 100000) (n1 := 128) n d))
      (Cert.ReferenceIdeal.Read.val_main_v44 (F := Ideal) (ValueIdx.ix2 (n0 := 100000) (n1 := 128) n d)))
    (a (ValueIdx.ix2 (n0 := 100000) (n1 := 128) n d) + Cert.ReferenceIdeal.Read.val_main_v42 (F := Ideal) b (ValueIdx.ix2 (n0 := 100000) (n1 := 128) n d))
    (Cert.ReferenceIdeal.Read.val_main_v46 (F := Ideal) (ValueIdx.ix2 (n0 := 100000) (n1 := 128) n d) * (a (ValueIdx.ix2 (n0 := 100000) (n1 := 128) n d) + Cert.ReferenceIdeal.Read.val_main_v42 (F := Ideal) b (ValueIdx.ix2 (n0 := 100000) (n1 := 128) n d))) = _
  rw [Cert.ReferenceIdeal.Read.val_main_v42_apply, Cert.ReferenceIdeal.Read.val_main_v41_apply, Cert.ReferenceIdeal.Read.val_main_v44_apply,
    Cert.ReferenceIdeal.Read.val_main_v46_apply, Cert.ReferenceIdeal.Read.val_main_cst_7_apply, Cert.ReferenceIdeal.Read.val_main_cst_8_apply, e]
  rfl

/-! ## One point's contribution, over the arrays -/

/-- Block `t`'s contribution at (q, d): the sum over its rows; nothing beyond the twenty blocks. -/
def blockSum (oh : (⟨2, ![100000, 64]⟩ : Shape).Idx → EReal) (h : (⟨2, ![100000, 128]⟩ : Shape).Idx → EReal)
    (t : ℕ) (q : Fin 64) (d : Fin 128) : EReal :=
  if ht : t < 20 then ∑ r : Fin 5000, oh (ValueIdx.ix2 (n0 := 100000) (n1 := 64) (Cert.Bridge.nodeOf ⟨t, ht⟩ r) q)
      * h (ValueIdx.ix2 (n0 := 100000) (n1 := 128) (Cert.Bridge.nodeOf ⟨t, ht⟩ r) d)
  else 0

/-- The contributions of the blocks 0 … n added in order. -/
def upTo (oh : (⟨2, ![100000, 64]⟩ : Shape).Idx → EReal) (h : (⟨2, ![100000, 128]⟩ : Shape).Idx → EReal)
    (n : ℕ) (q : Fin 64) (d : Fin 128) : EReal :=
  ∑ t ∈ Finset.range (n + 1), blockSum oh h t q d

/-- If the three loaded blocks are block `t` of the features, the bias row, and block `t` of the membership matrix,
    the update adds block `t`'s contribution. -/
theorem step_pure (a : Cert.Bridge.Nodes Ideal) (oh : (⟨2, ![100000, 64]⟩ : Shape).Idx → EReal) (b : Cert.Bridge.Row Ideal)
    (x0 : Vec Ideal S5000x128 .f32) (x1 : Vec Ideal S1x128 .f32) (x2 : Vec Ideal S5000x64 .bf16) (xs : Vec Ideal S64x128 .f32)
    (t : Fin 20)
    (h0 : ∀ (r : Fin 5000) (d : Fin 128), x0 (ValueIdx.ix2 (n0 := 5000) (n1 := 128) r d) = a (ValueIdx.ix2 (n0 := 100000) (n1 := 128) (Cert.Bridge.nodeOf t r) d))
    (h1 : ∀ d : Fin 128, x1 (ValueIdx.ix2 (n0 := 1) (n1 := 128) (0 : Fin 1) d) = b (Cert.ReferenceIdeal.Read.idx_main_v41 (ValueIdx.ix2 (n0 := 1) (n1 := 128) (0 : Fin 1) d)))
    (h2 : ∀ (r : Fin 5000) (q : Fin 64), x2 (ValueIdx.ix2 (n0 := 5000) (n1 := 64) r q) = oh (ValueIdx.ix2 (n0 := 100000) (n1 := 64) (Cert.Bridge.nodeOf t r) q))
    (q : Fin 64) (d : Fin 128) :
    k2_pay2 (F := Ideal) x0 x1 x2 xs (ValueIdx.ix2 (n0 := 64) (n1 := 128) q d)
      = xs (ValueIdx.ix2 (n0 := 64) (n1 := 128) q d) + ∑ r : Fin 5000, oh (ValueIdx.ix2 (n0 := 100000) (n1 := 64) (Cert.Bridge.nodeOf t r) q)
          * Cert.Bridge.act (F := Ideal) a b (ValueIdx.ix2 (n0 := 100000) (n1 := 128) (Cert.Bridge.nodeOf t r) d) := by
  rw [pay2_apply]
  refine congrArg (xs (ValueIdx.ix2 (n0 := 64) (n1 := 128) q d) + ·) (Finset.sum_congr rfl fun r _ => ?_)
  rw [h2 r q, h0 r d, h1 d, act_apply]

/-! ## The blocks, read off the arrays as the region finds them -/

variable (V : (c : Dev nD) → (b : Ref sig .tc) → Buf (Elt Ideal) ((c : Thread nD τ).loc b))

abbrev xarr (c : Dev nD) : Vec Ideal S100000x128 .f32 := V c main_v55
abbrev oharr (c : Dev nD) : Vec Ideal S100000x64 .bf16 := V c main_v62
abbrev xblk (c : Dev nD) (t : Fin cfg2.N) : Vec Ideal S5000x128 .f32 := iblk2 V c 0 t
abbrev bblk (c : Dev nD) (t : Fin cfg2.N) : Vec Ideal S1x128 .f32 := iblk2 V c 1 t
abbrev ohblk (c : Dev nD) (t : Fin cfg2.N) : Vec Ideal S5000x64 .bf16 := iblk2 V c 2 t

/-- The printed index maps over the grid: the feature and membership windows move down the rows one block of 5000 per
    point; the bias window and the output window stay where they are. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0 :=
  (by decide +kernel : ∀ t : Fin grid2.N, _)

theorem xblk_apply (c : Dev nD) (t : Fin cfg2.N) (r : Fin 5000) (d : Fin 128) (n : Fin 100000) (hn : n.val = 5000 * t.val + r.val) :
    xblk V c t (ValueIdx.ix2 (n0 := 5000) (n1 := 128) r d) = xarr V c (ValueIdx.ix2 (n0 := 100000) (n1 := 128) n d) := by
  obtain ⟨e0, e1, e2, e3, e4, e5, e6, e7⟩ := idx_facts2 t
  show V c main_v55 (((cfg2.win 0).blk t).view.emb (ValueIdx.ix2 (n0 := 5000) (n1 := 128) r d)) = V c main_v55 (ValueIdx.ix2 (n0 := 100000) (n1 := 128) n d)
  refine congrArg _ (funext fun a => Fin.ext ?_)
  match a with
  | ⟨0, _⟩ => show win2_0.index t (0 : Fin 2) * 5000 + 1 * r.val = n.val; omega
  | ⟨1, _⟩ => show win2_0.index t (1 : Fin 2) * 128 + 1 * d.val = d.val; omega

theorem ohblk_apply (c : Dev nD) (t : Fin cfg2.N) (r : Fin 5000) (q : Fin 64) (n : Fin 100000) (hn : n.val = 5000 * t.val + r.val) :
    ohblk V c t (ValueIdx.ix2 (n0 := 5000) (n1 := 64) r q) = oharr V c (ValueIdx.ix2 (n0 := 100000) (n1 := 64) n q) := by
  obtain ⟨e0, e1, e2, e3, e4, e5, e6, e7⟩ := idx_facts2 t
  show V c main_v62 (((cfg2.win 2).blk t).view.emb (ValueIdx.ix2 (n0 := 5000) (n1 := 64) r q)) = V c main_v62 (ValueIdx.ix2 (n0 := 100000) (n1 := 64) n q)
  refine congrArg _ (funext fun a => Fin.ext ?_)
  match a with
  | ⟨0, _⟩ => show win2_2.index t (0 : Fin 2) * 5000 + 1 * r.val = n.val; omega
  | ⟨1, _⟩ => show win2_2.index t (1 : Fin 2) * 64 + 1 * q.val = q.val; omega

theorem bblk_apply (c : Dev nD) (t : Fin cfg2.N) (d : Fin 128) :
    bblk V c t (ValueIdx.ix2 (n0 := 1) (n1 := 128) (0 : Fin 1) d) = V c main_v63 (ValueIdx.ix2 (n0 := 1) (n1 := 128) (0 : Fin 1) d) := by
  obtain ⟨e0, e1, e2, e3, e4, e5, e6, e7⟩ := idx_facts2 t
  show V c main_v63 (((cfg2.win 1).blk t).view.emb (ValueIdx.ix2 (n0 := 1) (n1 := 128) (0 : Fin 1) d)) = V c main_v63 (ValueIdx.ix2 (n0 := 1) (n1 := 128) (0 : Fin 1) d)
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * d.val = d.val; omega

/-- At point `t` the update adds block `t`'s contribution, with the activation of the features and the bias `b`. -/
theorem step_eq (c : Dev nD) (b : Cert.Bridge.Row Ideal)
    (hb : ∀ j : S1x128.Idx, V c main_v63 j = b (Cert.ReferenceIdeal.Read.idx_main_v41 j))
    (t : Fin cfg2.N) (xs : Vec Ideal S64x128 .f32) (q : Fin 64) (d : Fin 128) :
    k2_pay2 (F := Ideal) (xblk V c t) (bblk V c t) (ohblk V c t) xs (ValueIdx.ix2 (n0 := 64) (n1 := 128) q d)
      = xs (ValueIdx.ix2 (n0 := 64) (n1 := 128) q d) + blockSum (oharr V c) (Cert.Bridge.act (F := Ideal) (xarr V c) b) t.val q d := by
  have ht : t.val < 20 := lt20 t.isLt
  unfold blockSum
  rw [dif_pos ht]
  exact step_pure (xarr V c) (oharr V c) b (xblk V c t) (bblk V c t) (ohblk V c t) xs ⟨t.val, ht⟩
    (fun r d => xblk_apply V c t r d _ rfl) (fun d => (bblk_apply V c t d).trans (hb _))
    (fun r q => ohblk_apply V c t r q _ rfl) q d

/-! ## The accumulator after each point -/

theorem acc_eq (c : Dev nD) (b : Cert.Bridge.Row Ideal)
    (hb : ∀ j : S1x128.Idx, V c main_v63 j = b (Cert.ReferenceIdeal.Read.idx_main_v41 j)) :
    ∀ (n : ℕ) (hn : n < cfg2.N) (q : Fin 64) (d : Fin 128),
      (outsAt2 (F := Ideal) V c n hn).2 (ValueIdx.ix2 (n0 := 64) (n1 := 128) q d)
        = upTo (oharr V c) (Cert.Bridge.act (F := Ideal) (xarr V c) b) n q d
  | 0, hn, q, d => by
    have h0 : (⟨0, hn⟩ : Fin cfg2.N).val % 20 = 0 := rfl
    have h1 : ¬(⟨0, hn⟩ : Fin cfg2.N).val % 20 = 19 := by dsimp only; omega
    rw [outsAt2_A V c ⟨0, hn⟩ h0 h1]
    dsimp only
    refine (congrFun (soutA_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr h0) (fun h => h1 ((hcond2_1 ⟨0, hn⟩).mp h)) (xblk V c ⟨0, hn⟩) (bblk V c ⟨0, hn⟩) (ohblk V c ⟨0, hn⟩)) (ValueIdx.ix2 (n0 := 64) (n1 := 128) q d)).trans ?_
    refine (step_eq V c b hb ⟨0, hn⟩ (k2_pay1 (F := Ideal)) q d).trans ?_
    rw [pay1_apply, zero_add]
    unfold upTo
    rw [Finset.sum_range_one]
  | n + 1, hn, q, d => by
    have hN : n + 1 < 20 := lt20 hn
    have h0 : ¬(⟨n + 1, hn⟩ : Fin cfg2.N).val % 20 = 0 := by dsimp only; omega
    have ih := acc_eq c b hb n (Nat.lt_of_succ_lt hn) q d
    have hup : upTo (oharr V c) (Cert.Bridge.act (F := Ideal) (xarr V c) b) (n + 1) q d
        = upTo (oharr V c) (Cert.Bridge.act (F := Ideal) (xarr V c) b) n q d
          + blockSum (oharr V c) (Cert.Bridge.act (F := Ideal) (xarr V c) b) (n + 1) q d := by
      unfold upTo; rw [Finset.sum_range_succ]
    by_cases h1 : (⟨n + 1, hn⟩ : Fin cfg2.N).val % 20 = 19
    · rw [outsAt2_C V c ⟨n + 1, hn⟩ h0 h1]
      dsimp only
      refine (congrFun (soutC_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (xblk V c ⟨n + 1, hn⟩) (bblk V c ⟨n + 1, hn⟩) (ohblk V c ⟨n + 1, hn⟩) (outsAt2 (F := Ideal) V c n (Nat.lt_of_succ_lt hn)).2) (ValueIdx.ix2 (n0 := 64) (n1 := 128) q d)).trans ?_
      refine (step_eq V c b hb ⟨n + 1, hn⟩ (outsAt2 (F := Ideal) V c n (Nat.lt_of_succ_lt hn)).2 q d).trans ?_
      rw [ih, hup]
    · rw [outsAt2_B V c ⟨n + 1, hn⟩ h0 h1]
      dsimp only
      refine (congrFun (soutB_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (xblk V c ⟨n + 1, hn⟩) (bblk V c ⟨n + 1, hn⟩) (ohblk V c ⟨n + 1, hn⟩) (outsAt2 (F := Ideal) V c n (Nat.lt_of_succ_lt hn)).2) (ValueIdx.ix2 (n0 := 64) (n1 := 128) q d)).trans ?_
      refine (step_eq V c b hb ⟨n + 1, hn⟩ (outsAt2 (F := Ideal) V c n (Nat.lt_of_succ_lt hn)).2 q d).trans ?_
      rw [ih, hup]

/-! ## The one write-back and the array -/

/-- The pooled sums at (q, d) are the twenty contributions added in order. -/
theorem poolSum_apply (oh : (⟨2, ![100000, 64]⟩ : Shape).Idx → EReal) (h : (⟨2, ![100000, 128]⟩ : Shape).Idx → EReal)
    (q : Fin 64) (d : Fin 128) :
    Cert.Bridge.poolSum oh h (ValueIdx.ix2 (n0 := 64) (n1 := 128) q d) = upTo oh h 19 q d := by
  unfold upTo
  show _ = ∑ t ∈ Finset.range 20, blockSum oh h t q d
  rw [← Fin.sum_univ_eq_sum_range (fun t => blockSum oh h t q d) 20]
  unfold Cert.Bridge.poolSum
  refine Finset.sum_congr rfl fun t _ => ?_
  unfold blockSum
  rw [dif_pos t.isLt]

/-- At the last point the output block holds what the accumulator holds. -/
theorem out_last (c : Dev nD) (t : Fin cfg2.N) (h1 : t.val % 20 = 19) :
    (outsAt2 (F := Ideal) V c t.val t.isLt).1 = (outsAt2 (F := Ideal) V c t.val t.isLt).2 := by
  have h0 : ¬t.val % 20 = 0 := by omega
  rw [outsAt2_C V c t h0 h1]
  dsimp only
  rw [outC_eq, soutC_eq]

/-- Two functions of the 64×128 indices that agree at every (q, d) agree at indices with equal coordinates. -/
theorem read_eq_of (X G : S64x128.Idx → EReal) (hXG : ∀ (q : Fin 64) (d : Fin 128), X (ValueIdx.ix2 (n0 := 64) (n1 := 128) q d) = G (ValueIdx.ix2 (n0 := 64) (n1 := 128) q d))
    (y i : S64x128.Idx) (h0 : (i 0).val = (y 0).val) (h1 : (i 1).val = (y 1).val) : X y = G i := by
  have e : i = y := funext fun a => Fin.ext (by match a with | ⟨0, _⟩ => exact h0 | ⟨1, _⟩ => exact h1)
  subst e
  rw [ValueIdx.eq_ix2 i]
  exact hXG _ _

/-- The last point writes back the pooled sums of the membership matrix and the activation. -/
theorem flushed2_eq (c : Dev nD) (b : Cert.Bridge.Row Ideal)
    (hb : ∀ j : S1x128.Idx, V c main_v63 j = b (Cert.ReferenceIdeal.Read.idx_main_v41 j))
    (t : Fin cfg2.N) (hf : (cfg2.win 3).flush t = true) :
    (dat2 (F := Ideal) V c).flushed 3 t
      = ((cfg2.win 3).blk t).view.read (Elt Ideal)
          (Cert.Bridge.poolSum (V c main_v62) (Cert.Bridge.act (F := Ideal) (V c main_v55) b)) := by
  have h1 : t.val % 20 = 19 := (flush2_3 t).mp hf
  have ht : t.val = 19 := by have := lt20 t.isLt; omega
  obtain ⟨e0, e1, e2, e3, e4, e5, e6, e7⟩ := idx_facts2 t
  show (cfg2.win 3).cut (grid2.coords t) ((dat2 (F := Ideal) V c).after 3 t) = _
  rw [after2_3, out_last V c t h1]
  funext j
  show (outsAt2 (F := Ideal) V c t.val t.isLt).2 j
    = Cert.Bridge.poolSum (V c main_v62) (Cert.Bridge.act (F := Ideal) (V c main_v55) b) (((cfg2.win 3).blk t).view.emb j)
  refine read_eq_of _ _ (fun q d => ?_) j _ ?_ ?_
  · rw [acc_eq V c b hb t.val t.isLt q d, poolSum_apply, ht]
  · show win2_3.index t (0 : Fin 2) * 64 + 1 * (j 0).val = (j 0).val; omega
  · show win2_3.index t (1 : Fin 2) * 128 + 1 * (j 1).val = (j 1).val; omega

/-- An index of the output array is in point `t`'s block iff each coordinate is in the block's range on its axis. -/
theorem mem_blk2 (t : Fin cfg2.N) (i : S64x128.Idx) :
    i ∈ ((cfg2.win 3).blk t).view.set ↔ ∀ a : Fin 2, win2_3.index t a * S64x128.size a ≤ (i a).val
      ∧ (i a).val < win2_3.index t a * S64x128.size a + S64x128.size a := by
  show i ∈ ((View.whole main_v64).slice (win2_3.rect t)).set ↔ _
  rw [View.set_slice_whole, Rect.mem_set_unit]
  exact Iff.rfl

/-- The last point's block is the whole output array. -/
theorem covered2 (i : S64x128.Idx) :
    ∃ t : Fin cfg2.N, (cfg2.win 3).flush t = true ∧ i ∈ ((cfg2.win 3).blk t).view.set := by
  have hi0 : (i 0).val < 64 := (i 0).isLt
  have hi1 : (i 1).val < 128 := (i 1).isLt
  have hN : cfg2.N = 20 := N_2
  let t : Fin cfg2.N := ⟨19, by omega⟩
  obtain ⟨e0, e1, e2, e3, e4, e5, e6, e7⟩ := idx_facts2 t
  refine ⟨t, (flush2_3 t).mpr rfl, ?_⟩
  rw [mem_blk2]
  intro a
  match a with
  | ⟨0, _⟩ => show win2_3.index t (0 : Fin 2) * 64 ≤ (i 0).val ∧ (i 0).val < win2_3.index t (0 : Fin 2) * 64 + 64; omega
  | ⟨1, _⟩ => show win2_3.index t (1 : Fin 2) * 128 ≤ (i 1).val ∧ (i 1).val < win2_3.index t (1 : Fin 2) * 128 + 128; omega

/-- After the twenty points the output array holds the pooled sums, block by block, of the membership matrix and the
    activation of the features and the bias, as the region finds them. -/
theorem arr2_eq (c : Dev nD) (b : Cert.Bridge.Row Ideal)
    (hb : ∀ j : S1x128.Idx, V c main_v63 j = b (Cert.ReferenceIdeal.Read.idx_main_v41 j)) :
    (Cert.KernelIdeal.Hand.dat2 (F := Ideal) V c).arrAt 3 cfg2.N
      = Cert.Bridge.poolSum (V c main_v62) (Cert.Bridge.act (F := Ideal) (V c main_v55) b) :=
  (dat2 (F := Ideal) V c).arrAt_eq_of_cover 3
    (Cert.Bridge.poolSum (V c main_v62) (Cert.Bridge.act (F := Ideal) (V c main_v55) b))
    (fun t hf => flushed2_eq V c b hb t hf) covered2

end Cert.KernelIdeal.HandValue.Region2

end
-- ==== Proof.KI.HostFacts.lean ====
/-
  Three host facts of the kernel program, read at an index.  The host builds the one-hot membership matrix from the
  batch vector: the vector broadcast along the columns is compared for equality with the column numbers 0..63
  broadcast along the rows, and the one-bit result is converted to a float, so entry (n, q) is 1 when node n's
  word is the number q and 0 otherwise.  The two bias rows are the bias vectors recast from 128 entries to 1×128:
  entry (0, c) of the row is entry c of the vector.
-/
import proofs.«423938_j11501922419433_1_alg».proof.Proof.Gen.KernelIdeal.Launch
import proofs.«423938_j11501922419433_1_alg».proof.Proof.PoolSpec
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout

noncomputable section

namespace Cert.KernelIdeal.HandValue

open Cert.KernelIdeal Cert.KernelIdeal.Gen
open Idealize.ShloMosaic Idealize.ShloMosaic.TcCoe Idealize.SL.Sem Idealize.ShloMosaic.StableHlo

/-! ## The two bias rows -/

set_option maxHeartbeats 8000000 in
/-- The first layer's bias row: entry `(0, c)` is entry `c` of the bias vector. -/
theorem bias1_row (Wv : Valuation τ sig (Elt Ideal)) (j : S1x128.Idx) :
    StableHlo.after hostOps1 Wv (Proc.devRef .tc main_v41) j = Wv (Proc.devRef .tc main_arg4) (Cert.ReferenceIdeal.Read.idx_main_v41 j) := by
  after_results_simp
  obtain ⟨u, c, rfl⟩ : ∃ (u : Fin 1) (c : Fin 128), j = ValueIdx.ix2 u c := ⟨j 0, j 1, ValueIdx.eq_ix2 j⟩
  refine (ValueIdx.shapeCast_a_1a_apply (Wv (Proc.devRef .tc main_arg4)) shapeCasts_S128_S1x128 u c).trans ?_
  refine congrArg (Wv (Proc.devRef .tc main_arg4)) ?_
  funext a
  match a with
  | ⟨0, _⟩ => rfl

set_option maxHeartbeats 8000000 in
/-- The second layer's bias row, likewise. -/
theorem bias2_row (Wv : Valuation τ sig (Elt Ideal)) (j : S1x128.Idx) :
    StableHlo.after hostOps2 Wv (Proc.devRef .tc main_v63) j = Wv (Proc.devRef .tc main_arg6) (Cert.ReferenceIdeal.Read.idx_main_v41 j) := by
  after_results_simp
  obtain ⟨u, c, rfl⟩ : ∃ (u : Fin 1) (c : Fin 128), j = ValueIdx.ix2 u c := ⟨j 0, j 1, ValueIdx.eq_ix2 j⟩
  refine (ValueIdx.shapeCast_a_1a_apply (Wv (Proc.devRef .tc main_arg6)) shapeCasts_S128_S1x128 u c).trans ?_
  refine congrArg (Wv (Proc.devRef .tc main_arg6)) ?_
  funext a
  match a with
  | ⟨0, _⟩ => rfl

/-! ## The one-hot membership matrix -/

/-- The batch vector broadcast along the columns reads, at `(n, q)`, the word of node `n`. -/
theorem batchCols_apply (g : (⟨S100000, .i32⟩ : BufTy).Contents (Elt Ideal)) (j : S100000x64.Idx) :
    broadcastInDim S100000x64 ![0, 1] bcast_S100000x1_S100000x64_0_1
        (broadcastInDim S100000x1 ![0] bcast_S100000_S100000x1_0 g) j
      = g (Cert.Bridge.nodeIdx (j 0)) := by
  refine (broadcastInDim_apply _ bcast_S100000x1_S100000x64_0_1 _ j (ValueIdx.ix2 (j 0) (0 : Fin 1)) (fun a => match a with
    | ⟨0, _⟩ => by show (j 0).val = if (100000 : Nat) = 1 then 0 else (j 0).val; rw [if_neg (by decide)]
    | ⟨1, _⟩ => by show (0 : Nat) = if (1 : Nat) = 1 then 0 else (j 1).val; rw [if_pos rfl])).trans ?_
  exact broadcastInDim_apply _ bcast_S100000_S100000x1_0 g _ (Cert.Bridge.nodeIdx (j 0)) (fun a => match a with
    | ⟨0, _⟩ => by show (j 0).val = if (100000 : Nat) = 1 then 0 else (j 0).val; rw [if_neg (by decide)])

/-- The column numbers broadcast along the rows read, at `(n, q)`, the word of the number `q`. -/
theorem colNumbers_apply (j : S100000x64.Idx) :
    broadcastInDim S100000x64 ![0, 1] bcast_S1x64_S100000x64_0_1
        (broadcastInDim S1x64 ![1] bcast_S64_S1x64_1 (iotaInDim S64 32 0)) j
      = BitVec.ofNat 32 (j 1).val := by
  refine (broadcastInDim_apply _ bcast_S1x64_S100000x64_0_1 _ j (ValueIdx.ix2 (0 : Fin 1) (j 1)) (fun a => match a with
    | ⟨0, _⟩ => by show (0 : Nat) = if (1 : Nat) = 1 then 0 else (j 0).val; rw [if_pos rfl]
    | ⟨1, _⟩ => by show (j 1).val = if (64 : Nat) = 1 then 0 else (j 1).val; rw [if_neg (by decide)])).trans ?_
  exact broadcastInDim_apply _ bcast_S64_S1x64_1 (iotaInDim S64 32 0) _ (ValueIdx.ix1 (j 1)) (fun a => match a with
    | ⟨0, _⟩ => by show (j 1).val = if (64 : Nat) = 1 then 0 else (j 1).val; rw [if_neg (by decide)])

set_option maxHeartbeats 8000000 in
/-- The host's membership matrix is the one-hot matrix of the batch vector. -/
theorem onehot_eq (Wv : Valuation τ sig (Elt Ideal)) :
    StableHlo.after hostOps2 Wv (Proc.devRef .tc main_v62) = Cert.Bridge.oneHot (Wv (Proc.devRef .tc main_arg2)) := by
  funext j
  after_results_simp
  show (((IntOp.cmpi .eq
      (broadcastInDim S100000x64 ![0, 1] bcast_S100000x1_S100000x64_0_1
        (broadcastInDim S100000x1 ![0] bcast_S100000_S100000x1_0 (Wv (Proc.devRef .tc main_arg2))) j)
      (broadcastInDim S100000x64 ![0, 1] bcast_S1x64_S100000x64_0_1
        (broadcastInDim S1x64 ![1] bcast_S64_S1x64_1 (iotaInDim S64 32 0)) j)).toNat : ℝ) : EReal)
    = if (Wv (Proc.devRef .tc main_arg2)) (Cert.Bridge.nodeIdx (j 0)) = BitVec.ofNat 32 (j 1).val then (1 : EReal) else 0
  rw [batchCols_apply, colNumbers_apply]
  by_cases hq : (Wv (Proc.devRef .tc main_arg2)) (Cert.Bridge.nodeIdx (j 0)) = BitVec.ofNat 32 (j 1).val
  · rw [if_pos hq, Predicate.cmpi_eq_iff.2 hq]
    simp
  · rw [if_neg hq, ValueIdx.eq_zero_of_ne_one (fun hc => hq (Predicate.cmpi_eq_iff.1 hc))]
    simp

end Cert.KernelIdeal.HandValue

end
-- ==== Proof.KI.KernelValue.lean ====
/-
  The kernel program's result at the ideal instance, read through the fold of buffer contents the run states:
  each host stretch is the reference's own stage chain applied to what the stretch finds, each region leaves its
  output array at the closed form its value leg proves, and the composition is the reference's composition —
  linear layer, neighbourhood aggregation, bias and leaky rectifier, twice; the pooling by graph; the host tail.
-/
import proofs.«423938_j11501922419433_1_alg».proof.Proof.KI.Run
import proofs.«423938_j11501922419433_1_alg».proof.Proof.KI.Val0
import proofs.«423938_j11501922419433_1_alg».proof.Proof.KI.Val1
import proofs.«423938_j11501922419433_1_alg».proof.Proof.PoolSpec
import proofs.«423938_j11501922419433_1_alg».proof.Proof.KI.Val2
import proofs.«423938_j11501922419433_1_alg».proof.Proof.KI.HostFacts
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What a host stretch computes from what it finds -/

set_option maxHeartbeats 8000000 in
/-- The edge sources, the edge targets (both with the self-loops appended) and the edge norms, from the edge index. -/
theorem stretch0 (Wv : Valuation τ sig (Elt Ideal)) :
    StableHlo.after hostOps0 Wv (Proc.devRef .tc main_v5) = Cert.ReferenceIdeal.Read.val_main_v3 (F := Ideal) (Wv (Proc.devRef .tc main_arg1))
    ∧ StableHlo.after hostOps0 Wv (Proc.devRef .tc main_v6) = Cert.ReferenceIdeal.Read.val_main_v6 (F := Ideal) (Wv (Proc.devRef .tc main_arg1))
    ∧ StableHlo.after hostOps0 Wv (Proc.devRef .tc main_v26) = Cert.ReferenceIdeal.Read.val_main_v26 (F := Ideal) (Wv (Proc.devRef .tc main_arg1)) := by
  refine ⟨?_, ?_, ?_⟩ <;> (after_results_simp; rfl)

set_option maxHeartbeats 8000000 in
/-- The neighbourhood aggregation of the first layer's rows. -/
theorem stretch1 (Wv : Valuation τ sig (Elt Ideal)) (e : Cert.Bridge.Edges Ideal)
    (h5 : Wv (Proc.devRef .tc main_v5) = Cert.ReferenceIdeal.Read.val_main_v3 (F := Ideal) e)
    (h6 : Wv (Proc.devRef .tc main_v6) = Cert.ReferenceIdeal.Read.val_main_v6 (F := Ideal) e)
    (h26 : Wv (Proc.devRef .tc main_v26) = Cert.ReferenceIdeal.Read.val_main_v26 (F := Ideal) e) :
    StableHlo.after hostOps1 Wv (Proc.devRef .tc main_v40) = Cert.Bridge.agg (F := Ideal) (Wv (Proc.devRef .tc main_v27)) e := by
  after_results_simp
  rw [h5, h6, h26]
  rfl

set_option maxHeartbeats 8000000 in
/-- The neighbourhood aggregation of the second layer's rows. -/
theorem stretch2 (Wv : Valuation τ sig (Elt Ideal)) (e : Cert.Bridge.Edges Ideal)
    (h5 : Wv (Proc.devRef .tc main_v5) = Cert.ReferenceIdeal.Read.val_main_v3 (F := Ideal) e)
    (h6 : Wv (Proc.devRef .tc main_v6) = Cert.ReferenceIdeal.Read.val_main_v6 (F := Ideal) e)
    (h26 : Wv (Proc.devRef .tc main_v26) = Cert.ReferenceIdeal.Read.val_main_v26 (F := Ideal) e) :
    StableHlo.after hostOps2 Wv (Proc.devRef .tc main_v55) = Cert.Bridge.agg (F := Ideal) (Wv (Proc.devRef .tc main_v42)) e := by
  after_results_simp
  rw [h5, h6, h26]
  rfl

set_option maxHeartbeats 8000000 in
/-- The host tail: the mean over each graph's nodes, the last linear map, its bias. -/
theorem stretch3 (Wv : Valuation τ sig (Elt Ideal)) :
    StableHlo.after hostOps3 Wv (Proc.devRef .tc main_v77)
      = Cert.Bridge.tail (F := Ideal) (Wv (Proc.devRef .tc main_v64)) (Wv (Proc.devRef .tc main_arg2)) (Wv (Proc.devRef .tc main_arg7)) (Wv (Proc.devRef .tc main_arg8)) := by
  after_results_simp
  rfl

/-! ## Buffers an item leaves alone -/

theorem keep0 (c : Dev nD) (r : Ref sig .tc) (h : r ∉ hostOps0_W) : W1 m ρ c (Proc.devRef .tc r) = m ((c : Thread nD τ).loc r) :=
  (StableHlo.after_of_writes_sub hostOps0 _ hostOps0_writes h).trans rfl
theorem keep1 (c : Dev nD) (r : Ref sig .tc) (h : ∀ w, Pipeline.arrRef spec0 w ≠ r) : W2 m ρ c (Proc.devRef .tc r) = W1 m ρ c (Proc.devRef .tc r) :=
  W2_of_ne m ρ c r h
theorem keep2 (c : Dev nD) (r : Ref sig .tc) (h : r ∉ hostOps1_W) : W3 m ρ c (Proc.devRef .tc r) = W2 m ρ c (Proc.devRef .tc r) :=
  StableHlo.after_of_writes_sub hostOps1 _ hostOps1_writes h
theorem keep3 (c : Dev nD) (r : Ref sig .tc) (h : ∀ w, Pipeline.arrRef spec1 w ≠ r) : W4 m ρ c (Proc.devRef .tc r) = W3 m ρ c (Proc.devRef .tc r) :=
  W4_of_ne m ρ c r h
theorem keep4 (c : Dev nD) (r : Ref sig .tc) (h : r ∉ hostOps2_W) : W5 m ρ c (Proc.devRef .tc r) = W4 m ρ c (Proc.devRef .tc r) :=
  StableHlo.after_of_writes_sub hostOps2 _ hostOps2_writes h
theorem keep5 (c : Dev nD) (r : Ref sig .tc) (h : ∀ w, Pipeline.arrRef spec2 w ≠ r) : W6 m ρ c (Proc.devRef .tc r) = W5 m ρ c (Proc.devRef .tc r) :=
  W6_of_ne m ρ c r h

/-! ## The fold, boundary by boundary -/

/-- After region 0: the first linear layer. -/
theorem at2_v27 (c : Dev nD) :
    W2 m ρ c (Proc.devRef .tc main_v27) = Cert.Bridge.lin (F := Ideal) (m ((c : Thread nD τ).loc main_arg0)) (m ((c : Thread nD τ).loc main_arg3)) := by
  refine (W2_arr m ρ c 2).trans ((Region0.arr0_eq (V1 m ρ) c).trans ?_)
  rw [show V1 m ρ c main_arg0 = W1 m ρ c (Proc.devRef .tc main_arg0) from rfl, show V1 m ρ c main_arg3 = W1 m ρ c (Proc.devRef .tc main_arg3) from rfl,
    keep0 m ρ c main_arg0 (by decide), keep0 m ρ c main_arg3 (by decide)]

/-- The edge facts at region 0's exit. -/
theorem at2_edges (c : Dev nD) :
    W2 m ρ c (Proc.devRef .tc main_v5) = Cert.ReferenceIdeal.Read.val_main_v3 (F := Ideal) (m ((c : Thread nD τ).loc main_arg1))
    ∧ W2 m ρ c (Proc.devRef .tc main_v6) = Cert.ReferenceIdeal.Read.val_main_v6 (F := Ideal) (m ((c : Thread nD τ).loc main_arg1))
    ∧ W2 m ρ c (Proc.devRef .tc main_v26) = Cert.ReferenceIdeal.Read.val_main_v26 (F := Ideal) (m ((c : Thread nD τ).loc main_arg1)) := by
  obtain ⟨h5, h6, h26⟩ := stretch0 (W0 m ρ c)
  exact ⟨(keep1 m ρ c main_v5 (by decide)).trans h5, (keep1 m ρ c main_v6 (by decide)).trans h6, (keep1 m ρ c main_v26 (by decide)).trans h26⟩

/-- After the second stretch: the first layer aggregated. -/
theorem at3_v40 (c : Dev nD) :
    W3 m ρ c (Proc.devRef .tc main_v40) = Cert.Bridge.agg (F := Ideal) (Cert.Bridge.lin (m ((c : Thread nD τ).loc main_arg0)) (m ((c : Thread nD τ).loc main_arg3))) (m ((c : Thread nD τ).loc main_arg1)) := by
  obtain ⟨h5, h6, h26⟩ := at2_edges m ρ c
  exact (stretch1 (W2 m ρ c) _ h5 h6 h26).trans (by rw [at2_v27])

/-- After region 1: the second linear layer of the rectified first layer. -/
theorem at4_v42 (c : Dev nD) :
    W4 m ρ c (Proc.devRef .tc main_v42)
      = Cert.Bridge.lin (F := Ideal) (Cert.Bridge.act (Cert.Bridge.agg (Cert.Bridge.lin (m ((c : Thread nD τ).loc main_arg0)) (m ((c : Thread nD τ).loc main_arg3))) (m ((c : Thread nD τ).loc main_arg1))) (m ((c : Thread nD τ).loc main_arg4))) (m ((c : Thread nD τ).loc main_arg5)) := by
  refine (W4_arr m ρ c 3).trans ((Region1.arr1_eq (V3 m ρ) c (m ((c : Thread nD τ).loc main_arg4)) (fun j => ?_)).trans ?_)
  · show W3 m ρ c (Proc.devRef .tc main_v41) j = _
    refine (bias1_row (W2 m ρ c) j).trans ?_
    rw [keep1 m ρ c main_arg4 (by decide), keep0 m ρ c main_arg4 (by decide)]
  · rw [show V3 m ρ c main_v40 = W3 m ρ c (Proc.devRef .tc main_v40) from rfl, show V3 m ρ c main_arg5 = W3 m ρ c (Proc.devRef .tc main_arg5) from rfl,
      at3_v40, keep2 m ρ c main_arg5 (by decide), keep1 m ρ c main_arg5 (by decide), keep0 m ρ c main_arg5 (by decide)]

/-- The edge facts at region 1's exit. -/
theorem at4_edges (c : Dev nD) :
    W4 m ρ c (Proc.devRef .tc main_v5) = Cert.ReferenceIdeal.Read.val_main_v3 (F := Ideal) (m ((c : Thread nD τ).loc main_arg1))
    ∧ W4 m ρ c (Proc.devRef .tc main_v6) = Cert.ReferenceIdeal.Read.val_main_v6 (F := Ideal) (m ((c : Thread nD τ).loc main_arg1))
    ∧ W4 m ρ c (Proc.devRef .tc main_v26) = Cert.ReferenceIdeal.Read.val_main_v26 (F := Ideal) (m ((c : Thread nD τ).loc main_arg1)) := by
  obtain ⟨h5, h6, h26⟩ := at2_edges m ρ c
  exact ⟨(keep3 m ρ c main_v5 (by decide)).trans ((keep2 m ρ c main_v5 (by decide)).trans h5),
    (keep3 m ρ c main_v6 (by decide)).trans ((keep2 m ρ c main_v6 (by decide)).trans h6),
    (keep3 m ρ c main_v26 (by decide)).trans ((keep2 m ρ c main_v26 (by decide)).trans h26)⟩

/-- After the third stretch: the second layer aggregated. -/
theorem at5_v55 (c : Dev nD) :
    W5 m ρ c (Proc.devRef .tc main_v55)
      = Cert.Bridge.agg (F := Ideal) (Cert.Bridge.lin (Cert.Bridge.act (Cert.Bridge.agg (Cert.Bridge.lin (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1)) := by
  obtain ⟨h5, h6, h26⟩ := at4_edges m ρ c
  exact (stretch2 (W4 m ρ c) _ h5 h6 h26).trans (by rw [at4_v42])

/-- A buffer no item before region 2 writes holds its launch contents when region 2 is entered. -/
theorem at4_arg (c : Dev nD) (r : Ref sig .tc) (h0 : r ∉ hostOps0_W) (h1 : ∀ w, Pipeline.arrRef spec0 w ≠ r) (h2 : r ∉ hostOps1_W) (h3 : ∀ w, Pipeline.arrRef spec1 w ≠ r) :
    W4 m ρ c (Proc.devRef .tc r) = m ((c : Thread nD τ).loc r) :=
  (keep3 m ρ c r h3).trans ((keep2 m ρ c r h2).trans ((keep1 m ρ c r h1).trans (keep0 m ρ c r h0)))

/-- After region 2: the rectified second layer pooled by graph. -/
theorem at6_v64 (c : Dev nD) :
    W6 m ρ c (Proc.devRef .tc main_v64)
      = Cert.Bridge.pool (F := Ideal) (Cert.Bridge.act (Cert.Bridge.agg (Cert.Bridge.lin (Cert.Bridge.act (Cert.Bridge.agg (Cert.Bridge.lin (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1))) (m ((c : Thread nD τ).loc main_arg6))) (m ((c : Thread nD τ).loc main_arg2)) := by
  refine (W6_arr m ρ c 3).trans ((Region2.arr2_eq (V5 m ρ) c (m ((c : Thread nD τ).loc main_arg6)) (fun j => ?_)).trans ?_)
  · show W5 m ρ c (Proc.devRef .tc main_v63) j = _
    refine (bias2_row (W4 m ρ c) j).trans ?_
    rw [at4_arg m ρ c main_arg6 (by decide) (by decide) (by decide) (by decide)]
  · rw [show V5 m ρ c main_v62 = W5 m ρ c (Proc.devRef .tc main_v62) from rfl, show V5 m ρ c main_v55 = W5 m ρ c (Proc.devRef .tc main_v55) from rfl,
      at5_v55, show W5 m ρ c (Proc.devRef .tc main_v62) = StableHlo.after hostOps2 (W4 m ρ c) (Proc.devRef .tc main_v62) from rfl, onehot_eq,
      at4_arg m ρ c main_arg2 (by decide) (by decide) (by decide) (by decide)]
    exact Cert.Bridge.poolSum_oneHot _ _

/-- The kernel's result buffer after the run, as the reference's composition of the argument arrays. -/
theorem kernel_value (c : Dev nD) :
    W7 (F := Ideal) m ρ c (Proc.devRef .tc main_v77)
      = Cert.Bridge.tail (F := Ideal)
          (Cert.Bridge.pool (Cert.Bridge.act (Cert.Bridge.agg (Cert.Bridge.lin (Cert.Bridge.act (Cert.Bridge.agg
              (Cert.Bridge.lin (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1))) (m ((c : Thread nD τ).loc main_arg6))) (m ((c : Thread nD τ).loc main_arg2)))
          (m ((c : Thread nD τ).loc main_arg2)) (m ((c : Thread nD τ).loc main_arg7)) (m ((c : Thread nD τ).loc main_arg8)) := by
  refine (stretch3 (W6 m ρ c)).trans ?_
  rw [at6_v64, keep5 m ρ c main_arg2 (by decide), keep4 m ρ c main_arg2 (by decide), at4_arg m ρ c main_arg2 (by decide) (by decide) (by decide) (by decide),
    keep5 m ρ c main_arg7 (by decide), keep4 m ρ c main_arg7 (by decide), at4_arg m ρ c main_arg7 (by decide) (by decide) (by decide) (by decide),
    keep5 m ρ c main_arg8 (by decide), keep4 m ρ c main_arg8 (by decide), at4_arg m ρ c main_arg8 (by decide) (by decide) (by decide) (by decide)]

end Cert.KernelIdeal.HandValue

end
-- ==== Proof.lean ====
/-
  The certificate's claim.  The three frames: the word-level kernel program and its idealization each run their
  four host stretches and three pipelined regions to the end with every argument array as launched (the run over
  the fold of buffer contents, written once for any float instance); the reference is a straight line of host
  operations, whose run leaves the arguments unchanged.  The idealization rewrote nothing, so it is sanctioned
  trivially.  The value: at the ideal instance the kernel program's result buffer holds the reference's
  composition — linear layer, neighbourhood aggregation, bias and leaky rectifier, twice; pooling by graph;
  the mean and the last linear map — of the argument arrays, and so does the reference's.
-/
import proofs.«423938_j11501922419433_1_alg».proof.Defs
import proofs.«423938_j11501922419433_1_alg».proof.Proof.Gen.Kernel
import proofs.«423938_j11501922419433_1_alg».proof.Proof.Gen.KernelIdeal
import proofs.«423938_j11501922419433_1_alg».proof.Proof.Gen.ReferenceIdeal
import proofs.«423938_j11501922419433_1_alg».proof.Proof.Gen.Pre_finite_inputs
import proofs.«423938_j11501922419433_1_alg».proof.Proof.Gen.ReferenceIdeal.Run
import proofs.«423938_j11501922419433_1_alg».proof.Proof.Gen.ReferenceIdeal.Read
import proofs.«423938_j11501922419433_1_alg».proof.Proof.K.Run
import proofs.«423938_j11501922419433_1_alg».proof.Proof.KI.Run
import proofs.«423938_j11501922419433_1_alg».proof.Proof.KI.KernelValue
import proofs.«423938_j11501922419433_1_alg».proof.Proof.Spec
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

theorem preserves : Cert.preserves_Kernel_KernelIdeal := trivial

/-- Both programs end with the reference's composition of the (agreeing) argument arrays in their result buffers. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.W7 (F := Ideal) m ρ c (Proc.devRef .tc Cert.KernelIdeal.main_v77), ?_, ?_⟩
  · refine (θ_run Cert.KernelIdeal.defs _ _).mono (fun r h c => ?_) (Cert.KernelIdeal.Hand.run_all (F := Ideal) m ρ)
    refine ⟨h c _ (Cert.KernelIdeal.Hand.mem_uc Cert.KernelIdeal.main_v77 (by decide)), ?_⟩
    exact ⟨(h c _ (Cert.KernelIdeal.Hand.mem_uc Cert.KernelIdeal.main_arg0 (by decide))).trans (Cert.KernelIdeal.Hand.W7_main_arg0 m ρ c),
      (h c _ (Cert.KernelIdeal.Hand.mem_uc Cert.KernelIdeal.main_arg1 (by decide))).trans (Cert.KernelIdeal.Hand.W7_main_arg1 m ρ c),
      (h c _ (Cert.KernelIdeal.Hand.mem_uc Cert.KernelIdeal.main_arg2 (by decide))).trans (Cert.KernelIdeal.Hand.W7_main_arg2 m ρ c),
      (h c _ (Cert.KernelIdeal.Hand.mem_uc Cert.KernelIdeal.main_arg3 (by decide))).trans (Cert.KernelIdeal.Hand.W7_main_arg3 m ρ c),
      (h c _ (Cert.KernelIdeal.Hand.mem_uc Cert.KernelIdeal.main_arg4 (by decide))).trans (Cert.KernelIdeal.Hand.W7_main_arg4 m ρ c),
      (h c _ (Cert.KernelIdeal.Hand.mem_uc Cert.KernelIdeal.main_arg5 (by decide))).trans (Cert.KernelIdeal.Hand.W7_main_arg5 m ρ c),
      (h c _ (Cert.KernelIdeal.Hand.mem_uc Cert.KernelIdeal.main_arg6 (by decide))).trans (Cert.KernelIdeal.Hand.W7_main_arg6 m ρ c),
      (h c _ (Cert.KernelIdeal.Hand.mem_uc Cert.KernelIdeal.main_arg7 (by decide))).trans (Cert.KernelIdeal.Hand.W7_main_arg7 m ρ c),
      (h c _ (Cert.KernelIdeal.Hand.mem_uc Cert.KernelIdeal.main_arg8 (by decide))).trans (Cert.KernelIdeal.Hand.W7_main_arg8 m ρ c)⟩
  · refine (θ_run Cert.ReferenceIdeal.defs _ _).mono (fun r h c => ⟨(h c).1.trans ?_, (h c).2⟩) (Cert.ReferenceIdeal.Value.run (F := Ideal) m' ρ')
    show _ = Cert.KernelIdeal.Hand.W7 (F := Ideal) m ρ c (Proc.devRef .tc Cert.KernelIdeal.main_v77)
    rw [Cert.ReferenceIdeal.Read.val_main_v86_eq, Cert.Bridge.ref_eq, Cert.KernelIdeal.HandValue.kernel_value m ρ c,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
